-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x64x256x256 : Shape := ⟨5, ![2, 3, 64, 256, 256]⟩
abbrev S_ : Shape := ⟨0, ![]⟩

class Facts : Prop where
  bcast_S_S2x3x64x256x256 : S_.BroadcastsInDim S2x3x64x256x256 (![] : Fin 0 → Fin S2x3x64x256x256.rank)
  reducesTo_S2x3x64x256x256_S_d0_1_2_3_4 : S2x3x64x256x256.ReducesTo [0, 1, 2, 3, 4] S_
  h_S_ : 0 < S_.numel

variable [Facts]

def fn {F : FTy → Type} [FloatOps F] (main_arg0 : FVec F S2x3x64x256x256 .f32) (main_arg1 : IVec S2x3x64x256x256 32) : IVec S_ 1 :=
  let main_v0 : FVec F S2x3x64x256x256 .f32 := Host.absf main_arg0
  let main_cst : FVec F S_ .f32 := constant S_ .f32 0x7F800000#32
  let main_v1 : FVec F S2x3x64x256x256 .f32 := broadcastInDim S2x3x64x256x256 ![] bcast_S_S2x3x64x256x256 main_cst
  let main_v2 : IVec S2x3x64x256x256 1 := cmpf .olt main_v0 main_v1
  let main_c : IVec S_ 1 := constantI S_ 1 1#1
  let main_v3 : IVec S_ 1 := (fun x v => Host.reduce IntOp.andi x v reducesTo_S2x3x64x256x256_S_d0_1_2_3_4 h_S_) main_v2 main_c
  let main_c_0 : IVec S_ 32 := constantI S_ 32 0#32
  let main_v4 : IVec S2x3x64x256x256 32 := broadcastInDim S2x3x64x256x256 ![] bcast_S_S2x3x64x256x256 main_c_0
  let main_v5 : IVec S2x3x64x256x256 1 := cmpi .sge main_arg1 main_v4
  let main_c_1 : IVec S_ 32 := constantI S_ 32 32#32
  let main_v6 : IVec S2x3x64x256x256 32 := broadcastInDim S2x3x64x256x256 ![] bcast_S_S2x3x64x256x256 main_c_1
  let main_v7 : IVec S2x3x64x256x256 1 := cmpi .sle main_arg1 main_v6
  let main_v8 : IVec S2x3x64x256x256 1 := andi main_v5 main_v7
  let main_c_2 : IVec S_ 1 := constantI S_ 1 1#1
  let main_v9 : IVec S_ 1 := (fun x v => Host.reduce IntOp.andi x v reducesTo_S2x3x64x256x256_S_d0_1_2_3_4 h_S_) main_v8 main_c_2
  let main_v10 : IVec S_ 1 := andi main_v3 main_v9
  main_v10
-- ==== Kernel.lean ====
abbrev S2x3x64x256x256 : Shape := ⟨5, ![2, 3, 64, 256, 256]⟩
abbrev S2x3x4194304 : Shape := ⟨3, ![2, 3, 4194304]⟩
abbrev S2x2x33 : Shape := ⟨3, ![2, 2, 33]⟩
abbrev S1x3x131072 : Shape := ⟨3, ![1, 3, 131072]⟩
abbrev S1x2x33 : Shape := ⟨3, ![1, 2, 33]⟩
abbrev S2x40 : Shape := ⟨2, ![2, 40]⟩
abbrev S40x2048 : Shape := ⟨2, ![40, 2048]⟩
abbrev S40 : Shape := ⟨1, ![40]⟩
abbrev S1x3x2048 : Shape := ⟨3, ![1, 3, 2048]⟩
abbrev S3x2048 : Shape := ⟨2, ![3, 2048]⟩
abbrev S2048 : Shape := ⟨1, ![2048]⟩
abbrev S1x2048 : Shape := ⟨2, ![1, 2048]⟩
abbrev S2x2048 : Shape := ⟨2, ![2, 2048]⟩
abbrev S40x2 : Shape := ⟨2, ![40, 2]⟩
abbrev S40x1 : Shape := ⟨2, ![40, 1]⟩
abbrev S1x40 : Shape := ⟨2, ![1, 40]⟩
abbrev S2x33 : Shape := ⟨2, ![2, 33]⟩
abbrev S2x2x1 : Shape := ⟨3, ![2, 2, 1]⟩
abbrev S2x2x32 : Shape := ⟨3, ![2, 2, 32]⟩
abbrev S_ : Shape := ⟨0, ![]⟩
abbrev S2 : Shape := ⟨1, ![2]⟩

abbrev nBuf : Space → Nat
  | .hbm => 42
  | .vmem => 10
  | .smem => 0
  | _ => 0

abbrev bufTy : (tb : Table) → Fin (tcTables nBuf tb) → BufTy
  | .hbm, ⟨0, _⟩ => ⟨S2x3x64x256x256, .f32⟩
  | .hbm, ⟨1, _⟩ => ⟨S2x3x64x256x256, .i32⟩
  | .hbm, ⟨2, _⟩ => ⟨S2x3x4194304, .f32⟩
  | .hbm, ⟨3, _⟩ => ⟨S2x3x4194304, .i32⟩
  | .hbm, ⟨4, _⟩ => ⟨S2x2x33, .f32⟩
  | .hbm, ⟨5, _⟩ => ⟨S2x2x33, .f32⟩
  | .hbm, ⟨6, _⟩ => ⟨S2x2x1, .f32⟩
  | .hbm, ⟨7, _⟩ => ⟨S2x2x32, .f32⟩
  | .hbm, ⟨8, _⟩ => ⟨S2x2x32, .f32⟩
  | .hbm, ⟨9, _⟩ => ⟨S_, .f32⟩
  | .hbm, ⟨10, _⟩ => ⟨S2x2x32, .f32⟩
  | .hbm, ⟨11, _⟩ => ⟨S2x2x32, .f32⟩
  | .hbm, ⟨12, _⟩ => ⟨S_, .f32⟩
  | .hbm, ⟨13, _⟩ => ⟨S2x2x32, .f32⟩
  | .hbm, ⟨14, _⟩ => ⟨S2x2x32, .f32⟩
  | .hbm, ⟨15, _⟩ => ⟨S2x2x32, .f32⟩
  | .hbm, ⟨16, _⟩ => ⟨S2x2x32, .f32⟩
  | .hbm, ⟨17, _⟩ => ⟨S2x2x32, .f32⟩
  | .hbm, ⟨18, _⟩ => ⟨S_, .f32⟩
  | .hbm, ⟨19, _⟩ => ⟨S2x2x32, .f32⟩
  | .hbm, ⟨20, _⟩ => ⟨S2x2x32, .f32⟩
  | .hbm, ⟨21, _⟩ => ⟨S2x2x32, .f32⟩
  | .hbm, ⟨22, _⟩ => ⟨S_, .f32⟩
  | .hbm, ⟨23, _⟩ => ⟨S2x2x32, .f32⟩
  | .hbm, ⟨24, _⟩ => ⟨S2x2x32, .f32⟩
  | .hbm, ⟨25, _⟩ => ⟨S_, .f32⟩
  | .hbm, ⟨26, _⟩ => ⟨S2x2x32, .f32⟩
  | .hbm, ⟨27, _⟩ => ⟨S2x2x32, .i1⟩
  | .hbm, ⟨28, _⟩ => ⟨S2x2x32, .f32⟩
  | .hbm, ⟨29, _⟩ => ⟨S2x2x32, .f32⟩
  | .hbm, ⟨30, _⟩ => ⟨S_, .f32⟩
  | .hbm, ⟨31, _⟩ => ⟨S2, .f32⟩
  | .hbm, ⟨32, _⟩ => ⟨S_, .f32⟩
  | .hbm, ⟨33, _⟩ => ⟨S2, .f32⟩
  | .hbm, ⟨34, _⟩ => ⟨S_, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1x3x131072, .f32⟩
  | .local _ .vmem, ⟨1, _⟩ => ⟨S1x3x131072, .f32⟩
  | .local _ .vmem, ⟨2, _⟩ => ⟨S1x3x131072, .i32⟩
  | .local _ .vmem, ⟨3, _⟩ => ⟨S1x3x131072, .i32⟩
  | .local _ .vmem, ⟨4, _⟩ => ⟨S1x2x33, .f32⟩
  | .local _ .vmem, ⟨5, _⟩ => ⟨S1x2x33, .f32⟩
  | .local _ .vmem, ⟨6, _⟩ => ⟨S1x2x33, .f32⟩
  | .local _ .vmem, ⟨7, _⟩ => ⟨S1x2x33, .f32⟩
  | .local _ .vmem, ⟨8, _⟩ => ⟨S2x40, .f32⟩
  | .local _ .vmem, ⟨9, _⟩ => ⟨S2x40, .f32⟩
  | _, _ => ⟨S2x3x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_4 : BitVec 32 := 0#32
  let c64_i32 : BitVec 32 := 64#32
  let v8 : BitVec 32 := Scalar.addi c0_i32_4 c64_i32
  let c1_i32 : BitVec 32 := 1#32
  ⟨c0_i32_4, v8, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c2048_i32 : BitVec 32 := 2048#32
  let v37 : BitVec 32 := Scalar.muli arg8 c2048_i32
  v37
def k0_off1 (k0_t1 : Fin k0_t1_loop.trips) : Fin 3 → Nat :=
  let c0_21 : Index := 0#32
  let c0_22 : Index := 0#32
  let c0_i32_4 : BitVec 32 := 0#32
  let c1_i32 : BitVec 32 := 1#32
  let arg8 : BitVec 32 := Scf.iv c0_i32_4 c1_i32 k0_t1
  let c2048_i32 : BitVec 32 := 2048#32
  let v37 : BitVec 32 := Scalar.muli arg8 c2048_i32
  let v38 : BitVec 32 := v37
  let v39 : Index := Scalar.indexCast v38
  ![0, 0, v39.toNat]
def k0_cond2 (i : grid0.Coords) : BitVec 1 :=
  let arg1 : BitVec 32 := BitVec.ofNat 32 (i 1).val
  let c31_i32 : BitVec 32 := 31#32
  let v34 : BitVec 1 := Scalar.cmpi .eq arg1 c31_i32
  let v35 : BitVec 32 := Scalar.extui v34
  let c0_i32_20 : BitVec 32 := 0#32
  let v36 : BitVec 1 := Scalar.cmpi .ne v35 c0_i32_20
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x33 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2x3x64x256x256_S2x3x4194304 : S2x3x64x256x256.ShapeCasts S2x3x4194304
  inb_S2x40_S2x40_0_0 : ∀ a, (![0, 0] : Fin 2 → Nat) a + S2x40.size a ≤ S2x40.size a
  h_S2x40 : 0 < S2x40.numel
  shapeCasts_S2x40_S2x40 : S2x40.ShapeCasts S2x40
  iota_S40x2048_d0_w32 : S40x2048.Iotas .tc 32 [0]
  h_S1x3x2048 : 0 < S1x3x2048.numel
  shapeCasts_S1x3x2048_S3x2048 : S1x3x2048.ShapeCasts S3x2048
  reduces_S3x2048_S2048 : S3x2048.Reduces [0] S2048
  shapeCasts_S2048_S1x2048 : S2048.ShapeCasts S1x2048
  broadcasts_S1x2048_S3x2048 : S1x2048.Broadcasts S3x2048
  slices_S3x2048_o1_0_S1x2048 : S3x2048.Slices ![1, 0] S1x2048
  bitsLt_bf16_f32 : FTy.bits .bf16 < FTy.bits .f32
  broadcasts_S1x2048_S40x2048 : S1x2048.Broadcasts S40x2048
  natLt_1_32 : 1 < 32
  concatenates_S1x2048_S1x2048_S2x2048_d0 : Shape.Concatenates [S1x2048, S1x2048] S2x2048 0
  slices_S40x2_o0_0_S40x1 : S40x2.Slices ![0, 0] S40x1
  shapeCasts_S40x1_S40 : S40x1.ShapeCasts S40
  slices_S40x2_o0_1_S40x1 : S40x2.Slices ![0, 1] S40x1
  slices_S3x2048_o2_0_S1x2048 : S3x2048.Slices ![2, 0] S1x2048
  inb_S2x40_S1x40_0_0 : ∀ a, (![0, 0] : Fin 2 → Nat) a + S1x40.size a ≤ S2x40.size a
  h_S1x40 : 0 < S1x40.numel
  shapeCasts_S1x40_S40 : S1x40.ShapeCasts S40
  shapeCasts_S40_S1x40 : S40.ShapeCasts S1x40
  inb_S2x40_S1x40_1_0 : ∀ a, (![1, 0] : Fin 2 → Nat) a + S1x40.size a ≤ S2x40.size a
  inb_S2x40_S2x33_0_0 : ∀ a, (![0, 0] : Fin 2 → Nat) a + S2x33.size a ≤ S2x40.size a
  h_S2x33 : 0 < S2x33.numel
  inb_S1x2x33_S1x2x33_0_0_0 : ∀ a, (![0, 0, 0] : Fin 3 → Nat) a + S1x2x33.size a ≤ S1x2x33.size a
  h_S1x2x33 : 0 < S1x2x33.numel
  shapeCasts_S1x2x33_S2x33 : S1x2x33.ShapeCasts S2x33
  shapeCasts_S2x33_S1x2x33 : S2x33.ShapeCasts S1x2x33
  slices_S2x2x33_S2x2x1_0_0_0 : S2x2x33.Slices ![0, 0, 0] S2x2x1
  slices_S2x2x33_S2x2x32_0_0_1 : S2x2x33.Slices ![0, 0, 1] S2x2x32
  bcast_S_S2x2x32 : S_.BroadcastsInDim S2x2x32 (![] : Fin 0 → Fin S2x2x32.rank)
  bcast_S2x2x1_S2x2x32_0_1_2 : S2x2x1.BroadcastsInDim S2x2x32 (![0, 1, 2] : Fin 3 → Fin S2x2x32.rank)
  reducesTo_S2x2x32_S2_d0_2 : S2x2x32.ReducesTo [0, 2] S2
  h_S_ : 0 < S_.numel
  bcast_S_S2 : S_.BroadcastsInDim S2 (![] : Fin 0 → Fin S2.rank)
  reducesTo_S2_S_d0 : S2.ReducesTo [0] S_
  dot_S40x2048_S2x2048_S40x2_1_1_0_0_n_n_wf : DotDims.WF S40x2048 S2x2048 S40x2 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x3x2048.size a ≤ S1x3x131072.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x131072.size a ≤ S2x3x4194304.size a
  hwx0_0 : ∀ i : grid0.Coords, EltTy.bits .f32 = 32 ∨ (Rect.block (s := S2x3x4194304) S1x3x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x131072.size a ≤ S2x3x4194304.size a
  hwx0_1 : ∀ i : grid0.Coords, EltTy.bits .i32 = 32 ∨ (Rect.block (s := S2x3x4194304) S1x3x131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x33.size a ≤ S2x2x33.size a
  hwx0_2 : ∀ i : grid0.Coords, EltTy.bits .f32 = 32 ∨ (Rect.block (s := S2x2x33) S1x2x33.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x33.size a ≤ S2x2x33.size a
  hwx0_3 : ∀ i : grid0.Coords, EltTy.bits .f32 = 32 ∨ (Rect.block (s := S2x2x33) S1x2x33.size (cc0_transform_3 i) (hinb0_3 i)).WholeWords (EltTy.packing .f32)

variable [Facts₀]

def dot_S40x2048_S2x2048_S40x2_1_1_0_0_n_n : DotDims S40x2048 S2x2048 S40x2 where
  lhsContracting := [1]
  rhsContracting := [1]
  lhsNonContracting := [0]
  rhsNonContracting := [0]
  lhsBatch := []
  rhsBatch := []
  wf := dot_S40x2048_S2x2048_S40x2_1_1_0_0_n_n_wf

abbrev win0_0 : Pipeline.Window sig grid0 :=
  Pipeline.Window.ofSpec (Memref.whole main_v0) S1x3x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x2x33.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x2x33.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x3x64x256x256 : Shape := ⟨5, ![2, 3, 64, 256, 256]⟩
abbrev S_ : Shape := ⟨0, ![]⟩
abbrev S2x64x256x256 : Shape := ⟨4, ![2, 64, 256, 256]⟩
abbrev S2x1x64x256x256 : Shape := ⟨5, ![2, 1, 64, 256, 256]⟩
abbrev S2x2x64x256x256 : Shape := ⟨5, ![2, 2, 64, 256, 256]⟩
abbrev S4x4194304 : Shape := ⟨2, ![4, 4194304]⟩
abbrev S4 : Shape := ⟨1, ![4]⟩
abbrev S4x1 : Shape := ⟨2, ![4, 1]⟩
abbrev S16777216 : Shape := ⟨1, ![16777216]⟩
abbrev S132 : Shape := ⟨1, ![132]⟩
abbrev S16777216x1 : Shape := ⟨2, ![16777216, 1]⟩
abbrev S2x2x33 : Shape := ⟨3, ![2, 2, 33]⟩
abbrev S2x2x1 : Shape := ⟨3, ![2, 2, 1]⟩
abbrev S2x2x32 : Shape := ⟨3, ![2, 2, 32]⟩
abbrev S2 : Shape := ⟨1, ![2]⟩

abbrev nBuf : Space → Nat
  | .hbm => 77
  | .vmem => 0
  | .smem => 0
  | _ => 0

abbrev bufTy : (tb : Table) → Fin (tcTables nBuf tb) → BufTy
  | .hbm, ⟨0, _⟩ => ⟨S2x3x64x256x256, .f32⟩
  | .hbm, ⟨1, _⟩ => ⟨S2x3x64x256x256, .i32⟩
  | .hbm, ⟨2, _⟩ => ⟨S_, .f32⟩
  | .hbm, ⟨3, _⟩ => ⟨S2x64x256x256, .f32⟩
  | .hbm, ⟨4, _⟩ => ⟨S_, .f32⟩
  | .hbm, ⟨5, _⟩ => ⟨S2x64x256x256, .f32⟩
  | .hbm, ⟨6, _⟩ => ⟨S2x64x256x256, .f32⟩
  | .hbm, ⟨7, _⟩ => ⟨S2x1x64x256x256, .f32⟩
  | .hbm, ⟨8, _⟩ => ⟨S2x3x64x256x256, .f32⟩
  | .hbm, ⟨9, _⟩ => ⟨S2x3x64x256x256, .f32⟩
  | .hbm, ⟨10, _⟩ => ⟨S2x3x64x256x256, .f32⟩
  | .hbm, ⟨11, _⟩ => ⟨S_, .f32⟩
  | .hbm, ⟨12, _⟩ => ⟨S2x64x256x256, .f32⟩
  | .hbm, ⟨13, _⟩ => ⟨S2x1x64x256x256, .f32⟩
  | .hbm, ⟨14, _⟩ => ⟨S2x3x64x256x256, .f32⟩
  | .hbm, ⟨15, _⟩ => ⟨S2x3x64x256x256, .f32⟩
  | .hbm, ⟨16, _⟩ => ⟨S2x2x64x256x256, .f32⟩
  | .hbm, ⟨17, _⟩ => ⟨S2x2x64x256x256, .i32⟩
  | .hbm, ⟨18, _⟩ => ⟨S4x4194304, .f32⟩
  | .hbm, ⟨19, _⟩ => ⟨S4x4194304, .i32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4x1, .i32⟩
  | .hbm, ⟨25, _⟩ => ⟨S4x4194304, .i32⟩
  | .hbm, ⟨26, _⟩ => ⟨S4x4194304, .i32⟩
  | .hbm, ⟨27, _⟩ => ⟨S16777216, .i32⟩
  | .hbm, ⟨28, _⟩ => ⟨S16777216, .f32⟩
  | .hbm, ⟨29, _⟩ => ⟨S_, .f32⟩
  | .hbm, ⟨30, _⟩ => ⟨S132, .f32⟩
  | .hbm, ⟨31, _⟩ => ⟨S16777216x1, .i32⟩
  | .hbm, ⟨32, _⟩ => ⟨S132, .f32⟩
  | .hbm, ⟨33, _⟩ => ⟨S_, .f32⟩
  | .hbm, ⟨34, _⟩ => ⟨S16777216, .f32⟩
  | .hbm, ⟨35, _⟩ => ⟨S_, .f32⟩
  | .hbm, ⟨36, _⟩ => ⟨S132, .f32⟩
  | .hbm, ⟨37, _⟩ => ⟨S16777216x1, .i32⟩
  | .hbm, ⟨38, _⟩ => ⟨S132, .f32⟩
  | .hbm, ⟨39, _⟩ => ⟨S2x2x33, .f32⟩
  | .hbm, ⟨40, _⟩ => ⟨S2x2x33, .f32⟩
  | .hbm, ⟨41, _⟩ => ⟨S2x2x1, .f32⟩
  | .hbm, ⟨42, _⟩ => ⟨S2x2x32, .f32⟩
  | .hbm, ⟨43, _⟩ => ⟨S2x2x32, .f32⟩
  | .hbm, ⟨44, _⟩ => ⟨S_, .f32⟩
  | .hbm, ⟨45, _⟩ => ⟨S2x2x32, .f32⟩
  | .hbm, ⟨46, _⟩ => ⟨S2x2x32, .f32⟩
  | .hbm, ⟨47, _⟩ => ⟨S_, .f32⟩
  | .hbm, ⟨48, _⟩ => ⟨S2x2x32, .f32⟩
  | .hbm, ⟨49, _⟩ => ⟨S2x2x32, .f32⟩
  | .hbm, ⟨50, _⟩ => ⟨S2x2x32, .f32⟩
  | .hbm, ⟨51, _⟩ => ⟨S2x2x32, .f32⟩
  | .hbm, ⟨52, _⟩ => ⟨S2x2x32, .f32⟩
  | .hbm, ⟨53, _⟩ => ⟨S_, .f32⟩
  | .hbm, ⟨54, _⟩ => ⟨S2x2x32, .f32⟩
  | .hbm, ⟨55, _⟩ => ⟨S2x2x32, .f32⟩
  | .hbm, ⟨56, _⟩ => ⟨S2x2x32, .f32⟩
  | .hbm, ⟨57, _⟩ => ⟨S_, .f32⟩
  | .hbm, ⟨58, _⟩ => ⟨S2x2x32, .f32⟩
  | .hbm, ⟨59, _⟩ => ⟨S2x2x32, .f32⟩
  | .hbm, ⟨60, _⟩ => ⟨S_, .f32⟩
  | .hbm, ⟨61, _⟩ => ⟨S2x2x32, .f32⟩
  | .hbm, ⟨62, _⟩ => ⟨S2x2x32, .i1⟩
  | .hbm, ⟨63, _⟩ => ⟨S2x2x32, .f32⟩
  | .hbm, ⟨64, _⟩ => ⟨S2x2x32, .f32⟩
  | .hbm, ⟨65, _⟩ => ⟨S_, .f32⟩
  | .hbm, ⟨66, _⟩ => ⟨S2, .f32⟩
  | .hbm, ⟨67, _⟩ => ⟨S_, .f32⟩
  | .hbm, ⟨68, _⟩ => ⟨S2, .f32⟩
  | .hbm, ⟨69, _⟩ => ⟨S_, .f32⟩
  | .hbm, ⟨70, _⟩ => ⟨S2, .f32⟩
  | .hbm, ⟨71, _⟩ => ⟨S2, .f32⟩
  | .hbm, ⟨72, _⟩ => ⟨S2, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S2x3x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_cst_14 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  reducesTo_S2x3x64x256x256_S2x64x256x256_d1 : S2x3x64x256x256.ReducesTo [1] S2x64x256x256
  h_S_ : 0 < S_.numel
  bcast_S_S2x64x256x256 : S_.BroadcastsInDim S2x64x256x256 (![] : Fin 0 → Fin S2x64x256x256.rank)
  bcast_S2x64x256x256_S2x1x64x256x256_0_2_3_4 : S2x64x256x256.BroadcastsInDim S2x1x64x256x256 (![0, 2, 3, 4] : Fin 4 → Fin S2x1x64x256x256.rank)
  bcast_S2x1x64x256x256_S2x3x64x256x256_0_1_2_3_4 : S2x1x64x256x256.BroadcastsInDim S2x3x64x256x256 (![0, 1, 2, 3, 4] : Fin 5 → Fin S2x3x64x256x256.rank)
  slices_S2x3x64x256x256_S2x2x64x256x256_0_1_0_0_0 : S2x3x64x256x256.Slices ![0, 1, 0, 0, 0] S2x2x64x256x256
  shapeCasts_S2x2x64x256x256_S4x4194304 : S2x2x64x256x256.ShapeCasts S4x4194304
  bcast_S_S4 : S_.BroadcastsInDim S4 (![] : Fin 0 → Fin S4.rank)
  bcast_S4_S4x1_0 : S4.BroadcastsInDim S4x1 (![0] : Fin 1 → Fin S4x1.rank)
  bcast_S4x1_S4x4194304_0_1 : S4x1.BroadcastsInDim S4x4194304 (![0, 1] : Fin 2 → Fin S4x4194304.rank)
  shapeCasts_S4x4194304_S16777216 : S4x4194304.ShapeCasts S16777216
  bcast_S_S132 : S_.BroadcastsInDim S132 (![] : Fin 0 → Fin S132.rank)
  bcast_S16777216_S16777216x1_0 : S16777216.BroadcastsInDim S16777216x1 (![0] : Fin 1 → Fin S16777216x1.rank)
  bcast_S_S16777216 : S_.BroadcastsInDim S16777216 (![] : Fin 0 → Fin S16777216.rank)
  shapeCasts_S132_S2x2x33 : S132.ShapeCasts S2x2x33
  slices_S2x2x33_S2x2x1_0_0_0 : S2x2x33.Slices ![0, 0, 0] S2x2x1
  slices_S2x2x33_S2x2x32_0_0_1 : S2x2x33.Slices ![0, 0, 1] S2x2x32
  bcast_S_S2x2x32 : S_.BroadcastsInDim S2x2x32 (![] : Fin 0 → Fin S2x2x32.rank)
  bcast_S2x2x1_S2x2x32_0_1_2 : S2x2x1.BroadcastsInDim S2x2x32 (![0, 1, 2] : Fin 3 → Fin S2x2x32.rank)
  reducesTo_S2x2x32_S2_d0_2 : S2x2x32.ReducesTo [0, 2] S2
  bcast_S_S2 : S_.BroadcastsInDim S2 (![] : Fin 0 → Fin S2.rank)
  reducesTo_S2_S_d0 : S2.ReducesTo [0] S_
  scatter_S132_S16777216x1_S16777216_n_0_0_1_wf : ScatterDims.WF S132 S16777216x1 S16777216 [] [0] [0] 1

variable [Facts₀]

def scatter_S132_S16777216x1_S16777216_n_0_0_1 : ScatterDims S132 S16777216x1 S16777216 where
  updateWindowDims := []
  insertedWindowDims := [0]
  scatterDimsToOperandDims := [0]
  indexVectorDim := 1
  wf := scatter_S132_S16777216x1_S16777216_n_0_0_1_wf

class Facts : Prop extends Facts₀ where

variable [Facts]
-- ==== Proof.PreDecode.lean ====
/-
  The precondition read back: where it holds, every target word is a segment id, 0 ≤ t ≤ 32 as a signed word, so its
  unsigned value is at most 32.

  The predicate is the conjunction of two reductions by `and` over all axes; the second is over the words
  (0 ≤ t) ∧ (t ≤ 32), both compared as signed 32-bit integers. A conjunction of one-bit words is 1 exactly when both
  are, and a reduction by `and` from 1 that is 1 met only 1s, so both comparisons hold at every index.
-/
import proofs.«404998_j80882824118629_3_alg».proof.Pre_finite_inputs
import proofs.«404998_j80882824118629_3_alg».proof.Proof.Gen.Pre_finite_inputs
import Idealize.ShloMosaic.PureOps.Ideal
import Idealize.ShloMosaic.Lib.ReduceAll
import Idealize.ShloMosaic.Lib.StableHlo.Predicate

noncomputable section

namespace Cert.PreDecode

open Idealize.ShloMosaic Cert.Pre_finite_inputs

/-- A 32-bit word whose signed value lies between 0 and 32 has unsigned value at most 32: a nonnegative signed value
    is the unsigned value itself (a word of unsigned value 2^31 or more has a negative signed value). -/
theorem toNat_le_of_signed (w : BitVec 32) (h0 : (0#32).toInt ≤ w.toInt) (h1 : w.toInt ≤ (32#32).toInt) :
    w.toNat ≤ 32 := by
  have e0 : (0#32 : BitVec 32).toInt = 0 := by decide
  have e1 : (32#32 : BitVec 32).toInt = 32 := by decide
  rw [e0] at h0
  rw [e1] at h1
  have hw : w.toNat < 2 ^ 32 := w.isLt
  rw [BitVec.toInt_eq_toNat_cond] at h0 h1
  split at h0 <;> omega

/-- Under the precondition every target word lies in 0 … 32. -/
theorem range_of_pre (x0 : FVec Ideal S2x3x64x256x256 .f32) (x1 : IVec S2x3x64x256x256 32)
    (h : Cert.Pre_finite_inputs.fn (F := Ideal) x0 x1 = fun _ => 1#1) : ∀ i, (x1 i).toNat ≤ 32 := by
  intro i
  have h0 := congrFun h (fun a => a.elim0)
  dsimp only [fn] at h0
  have h1 := (IntOp.andi_eq_one.1 h0).2
  haveI : Subsingleton S_.Idx := ⟨fun a b => funext fun d => d.elim0⟩
  have h2 := Host.reduce_andi_all _ _ _ _ _ h1 i
  obtain ⟨hge, hle⟩ := IntOp.andi_eq_one.1 h2
  have hge' : IntOp.cmpi .sge (x1 i) 0#32 = 1#1 := hge
  have hle' : IntOp.cmpi .sle (x1 i) 32#32 = 1#1 := hle
  exact toNat_le_of_signed (x1 i) (IntOp.cmpi_sge.1 hge') (IntOp.cmpi_sle.1 hle')

end Cert.PreDecode

end
-- ==== Proof.Spec.lean ====
/-
  The common value of the two programs, written once over the extended reals.

  For batch `b`, foreground channel `r + 1` and segment id `s`, both programs end with
    psum b r s = ∑ over the spatial positions l whose target word is s of softmax(x)[b, r + 1, l]
    cnt  b r s = the number of those positions,
  where softmax is over the three channels at one position, written with the shift by the channel maximum:
  e^(x_c - M) / ∑_c' e^(x_c' - M). A spatial position is a natural number l < 64·256·256, depth-major.
-/
import Idealize.ShloMosaic.PureOps.Ideal
import Idealize.ShloMosaic.Lib.ValueIdx

noncomputable section

namespace Cert.Spec

open Idealize.ShloMosaic Idealize.ShloMosaic.ValueIdx

abbrev SIn : Shape := ⟨5, ![2, 3, 64, 256, 256]⟩
abbrev SAcc : Shape := ⟨3, ![2, 2, 33]⟩

/-- The array index of batch `b`, channel `c`, flattened spatial position `l = (d·256 + h)·256 + w`. -/
def at5 (b : Fin 2) (c : Fin 3) (l : ℕ) : SIn.Idx :=
  ix5 b c ⟨l / 65536 % 64, Nat.mod_lt _ (by decide)⟩ ⟨l / 256 % 256, Nat.mod_lt _ (by decide)⟩
    ⟨l % 256, Nat.mod_lt _ (by decide)⟩

/-- Foreground channel `r + 1` of the two that are kept (channel 0 is the background class). -/
def fg (r : Fin 2) : Fin 3 := ⟨r.val + 1, by omega⟩

/-- The maximum over the three channels at one position. -/
def chanMax (x : SIn.Idx → EReal) (b : Fin 2) (l : ℕ) : EReal :=
  (Finset.univ : Finset (Fin 3)).fold max ⊥ (fun c => x (at5 b c l))

/-- e^(x_c - M). -/
def expShift (x : SIn.Idx → EReal) (b : Fin 2) (c : Fin 3) (l : ℕ) : EReal :=
  Ideal.exp (x (at5 b c l) - chanMax x b l)

/-- The softmax over the channel axis at one position. -/
def soft (x : SIn.Idx → EReal) (b : Fin 2) (c : Fin 3) (l : ℕ) : EReal :=
  Ideal.div (expShift x b c l) (∑ c' : Fin 3, expShift x b c' l)

/-- Position `l`'s contribution to the probability mass of segment `s`. -/
def termP (x : SIn.Idx → EReal) (t : SIn.Idx → BitVec 32) (b : Fin 2) (r : Fin 2) (s : ℕ) (l : ℕ) : EReal :=
  if t (at5 b (fg r) l) = BitVec.ofNat 32 s then soft x b (fg r) l else 0

/-- Position `l`'s contribution to the size of segment `s`. -/
def termC (t : SIn.Idx → BitVec 32) (b : Fin 2) (r : Fin 2) (s : ℕ) (l : ℕ) : EReal :=
  if t (at5 b (fg r) l) = BitVec.ofNat 32 s then 1 else 0

/-- The per-segment probability mass. -/
def psumG (x : SIn.Idx → EReal) (t : SIn.Idx → BitVec 32) : SAcc.Idx → EReal :=
  fun j => ∑ l ∈ Finset.range 4194304, termP x t (j 0) (j 1) (j 2).val l

/-- The per-segment size. -/
def cntG (t : SIn.Idx → BitVec 32) : SAcc.Idx → EReal :=
  fun j => ∑ l ∈ Finset.range 4194304, termC t (j 0) (j 1) (j 2).val l

end Cert.Spec

end
-- ==== Proof.RefSoft.lean ====
/-
  The reference before its two segment sums, read at an index. Row r = 2·b + (channel - 1) of the [4, 64·256·256]
  arrays holds, at spatial position l, the softmax over the channels of the predictions at (b, channel, l), and the
  target word at (b, channel, l) plus the row's offset 33·r.

  The softmax is read stage by stage at the input index (b, c, l): the channel maximum M does not depend on c, so the
  shifted exponential at (b, c, l) is e^(x_c - M), the channel sum at (b, c, l) is ∑_c' e^(x_c' - M), and their
  quotient is the softmax. Row r, position l of the flattened array is the input index (r / 2, r % 2 + 1, l), because
  r·64·256·256 + l splits as ((r / 2)·2 + r % 2)·64·256·256 + l with l below 64·256·256.
-/
import proofs.«404998_j80882824118629_3_alg».proof.Proof.RefRead
import proofs.«404998_j80882824118629_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-- The batch of row `r`. -/
def rowB (r : Fin 4) : Fin 2 := ⟨r.val / 2, by omega⟩
/-- The kept-channel number (0 or 1) of row `r`. -/
def rowR (r : Fin 4) : Fin 2 := ⟨r.val % 2, by omega⟩

/-! ### Indices -/

/-- The index of batch `b`, flattened spatial position `l` in the arrays with the channel axis reduced away. -/
def at4 (b : Fin 2) (l : ℕ) : S2x64x256x256.Idx :=
  ix4 b ⟨l / 65536 % 64, Nat.mod_lt _ (by decide)⟩ ⟨l / 256 % 256, Nat.mod_lt _ (by decide)⟩
    ⟨l % 256, Nat.mod_lt _ (by decide)⟩

/-- Broadcasting the channel maximum back over the channels reads it at (b, l), whatever the channel. -/
theorem idx_v3_v4_at (b : Fin 2) (c : Fin 3) (l : ℕ) :
    idx_main_v3 (idx_main_v4 (Spec.at5 b c l)) = at4 b l := by
  funext a
  match a with
  | ⟨0, _⟩ => rfl
  | ⟨1, _⟩ => rfl
  | ⟨2, _⟩ => rfl
  | ⟨3, _⟩ => rfl

/-- Broadcasting the channel sum back over the channels reads it at (b, l), whatever the channel. -/
theorem idx_v8_v9_at (b : Fin 2) (c : Fin 3) (l : ℕ) :
    idx_main_v8 (idx_main_v9 (Spec.at5 b c l)) = at4 b l := by
  funext a
  match a with
  | ⟨0, _⟩ => rfl
  | ⟨1, _⟩ => rfl
  | ⟨2, _⟩ => rfl
  | ⟨3, _⟩ => rfl

/-- The `k`-th summand of the channel sum at (b, l) is the operand at (b, k, l). -/
theorem idx_v7_at (b : Fin 2) (k : Fin 3) (l : ℕ) :
    idx_main_v7 (at4 b l) k = Spec.at5 b k l := by
  funext a
  match a with
  | ⟨0, _⟩ => rfl
  | ⟨1, _⟩ => rfl
  | ⟨2, _⟩ => rfl
  | ⟨3, _⟩ => rfl
  | ⟨4, _⟩ => rfl

/-- Inserting channel `k` into (b, l) gives (b, k, l). -/
theorem lift_at (h : S2x3x64x256x256.Reduces [1] S2x64x256x256) (b : Fin 2) (k : Fin 3) (l : ℕ) :
    h.lift (at4 b l) k = Spec.at5 b k l := by
  funext a
  match a with
  | ⟨0, _⟩ => rfl
  | ⟨1, _⟩ => rfl
  | ⟨2, _⟩ => rfl
  | ⟨3, _⟩ => rfl
  | ⟨4, _⟩ => rfl

/-- Row `r`, position `l` of the flattened slice is input index (r / 2, r % 2 + 1, l): the flat offset
    r·4194304 + l has quotient r / 2 by 2·4194304, channel digit r % 2, and spatial digits those of l < 4194304. -/
theorem idx_v11_v13_at (r : Fin 4) (l : Fin 4194304) :
    idx_main_v11 (idx_main_v13 (ix2 r l)) = Spec.at5 (rowB r) (Spec.fg (rowR r)) l.val := by
  have hr : r.val < 4 := r.isLt
  have hl : l.val < 4194304 := l.isLt
  funext a
  apply Fin.ext
  match a with
  | ⟨0, _⟩ => show (r.val * 4194304 + l.val) / 8388608 = r.val / 2; omega
  | ⟨1, _⟩ => show 1 + (r.val * 4194304 + l.val) / 4194304 % 2 = r.val % 2 + 1; omega
  | ⟨2, _⟩ => show (r.val * 4194304 + l.val) / 65536 % 64 = l.val / 65536 % 64; omega
  | ⟨3, _⟩ => show (r.val * 4194304 + l.val) / 256 % 256 = l.val / 256 % 256; omega
  | ⟨4, _⟩ => show (r.val * 4194304 + l.val) % 256 = l.val % 256; omega

/-- The same for the target words' slice and flattening. -/
theorem idx_v12_v14_at (r : Fin 4) (l : Fin 4194304) :
    idx_main_v12 (idx_main_v14 (ix2 r l)) = Spec.at5 (rowB r) (Spec.fg (rowR r)) l.val :=
  idx_v11_v13_at r l

/-! ### The softmax, stage by stage -/

/-- The maximum-reduce over the channel axis from -∞ is the fold of `max` from ⊥ over the three channels. -/
theorem v0_at (x0 : FVec Ideal S2x3x64x256x256 .f32) (b : Fin 2) (l : ℕ) :
    val_main_v0 (F := Ideal) x0 (at4 b l) = Spec.chanMax x0 b l := by
  have h : S2x3x64x256x256.Reduces [1] S2x64x256x256 := by decide
  have e1 : (x0 ∘ h.lift (at4 b l)) = fun c : Fin 3 => x0 (Spec.at5 b c l) :=
    funext fun k => congrArg x0 (lift_at h b k l)
  have e2 : val_main_cst (F := Ideal) (Shape.Idx.first h_S_) = (⊥ : EReal) := by
    simp [val_main_cst_apply, Ideal.ofBits, Ideal.ieee]
  unfold val_main_v0
  rw [Host.reduce_eq_fold_single (FloatOps.maximumf (F := Ideal)) x0 _ reducesTo_S2x3x64x256x256_S2x64x256x256_d1 h h_S_, e1, e2]
  rfl

/-- The broadcast of -∞ is ⊥ everywhere. -/
theorem v1_at (j : S2x64x256x256.Idx) : val_main_v1 (F := Ideal) j = (⊥ : EReal) := by
  rw [val_main_v1_apply, val_main_cst_0_apply]
  simp [Ideal.ofBits, Ideal.ieee]

/-- The broadcast channel maximum at (b, c, l) is M(b, l): max ⊥ M = M. -/
theorem v4_at (x0 : FVec Ideal S2x3x64x256x256 .f32) (b : Fin 2) (c : Fin 3) (l : ℕ) :
    val_main_v4 (F := Ideal) x0 (Spec.at5 b c l) = Spec.chanMax x0 b l := by
  rw [val_main_v4_apply, val_main_v3_apply, val_main_v2_apply, idx_v3_v4_at, v1_at, v0_at]
  simp only [Ideal.maximumf_def]
  exact max_eq_right bot_le

/-- The shifted exponential at (b, c, l) is e^(x_c - M). -/
theorem v6_at (x0 : FVec Ideal S2x3x64x256x256 .f32) (b : Fin 2) (c : Fin 3) (l : ℕ) :
    val_main_v6 (F := Ideal) x0 (Spec.at5 b c l) = Spec.expShift x0 b c l := by
  rw [val_main_v6_apply, val_main_v5_apply, v4_at]
  rfl

/-- The broadcast channel sum at (b, c, l) is 0 + ∑_c' e^(x_c' - M). -/
theorem v9_at (x0 : FVec Ideal S2x3x64x256x256 .f32) (b : Fin 2) (c : Fin 3) (l : ℕ) :
    val_main_v9 (F := Ideal) x0 (Spec.at5 b c l) = ∑ c' : Fin 3, Spec.expShift x0 b c' l := by
  rw [val_main_v9_apply, val_main_v8_apply, idx_v8_v9_at, val_main_v7_apply, val_main_cst_1_apply]
  simp only [Ideal.ofBits_def, Ideal.ofBits_zero_f32, zero_add, idx_v7_at, v6_at]

/-- The quotient at (b, c, l) is the softmax. -/
theorem v10_at (x0 : FVec Ideal S2x3x64x256x256 .f32) (b : Fin 2) (c : Fin 3) (l : ℕ) :
    val_main_v10 (F := Ideal) x0 (Spec.at5 b c l) = Spec.soft x0 b c l := by
  rw [val_main_v10_apply, v6_at, v9_at]
  rfl

/-- The probabilities: row `r`, position `l` is the channel softmax of the predictions. -/
theorem ref_soft (x0 : FVec Ideal S2x3x64x256x256 .f32) (r : Fin 4) (l : Fin 4194304) :
    val_main_v13 (F := Ideal) x0 (ix2 r l) = Spec.soft x0 (rowB r) (Spec.fg (rowR r)) l.val := by
  rw [val_main_v13_apply, val_main_v11_apply, idx_v11_v13_at, v10_at]

/-! ### The segment ids -/

/-- The row offset r·33 as a 32-bit word, for the four rows. -/
theorem offset_word (r : Fin 4) : BitVec.ofNat 32 r.val * 33#32 = BitVec.ofNat 32 (33 * r.val) := by
  fin_cases r <;> rfl

/-- The broadcast offset at row `r` is the word 33·r, whatever the position. -/
theorem v19_at (r : Fin 4) (l : Fin 4194304) :
    val_main_v19 (F := Ideal) (ix2 r l) = BitVec.ofNat 32 (33 * r.val) := by
  rw [val_main_v19_apply, val_main_v18_apply, val_main_v17_apply, val_main_v15_apply, val_main_v16_apply,
    val_main_c_apply]
  exact offset_word r

/-- The segment ids: row `r`, position `l` is the target word plus 33·r. -/
theorem ref_ids (x1 : IVec S2x3x64x256x256 32) (r : Fin 4) (l : Fin 4194304) :
    val_main_v20 (F := Ideal) x1 (ix2 r l)
      = x1 (Spec.at5 (rowB r) (Spec.fg (rowR r)) l.val) + BitVec.ofNat 32 (33 * r.val) := by
  rw [val_main_v20_apply, val_main_v14_apply, val_main_v12_apply, idx_v12_v14_at, v19_at]
  rfl

end Cert.ReferenceIdeal.RefValue

end
-- ==== Proof.Tail.lean ====
/-
  The host arithmetic both programs apply to the per-segment probability mass `P` and size `C` (both [2, 2, 33]):
  with s_bg = P[.., 0], s_i = P[.., 1 + i], n_i = C[.., 1 + i] for the 32 instance ids,
    dice = 1 - (2·s_i + ε) / (s_bg + s_i + n_i + ε),   present = [n_i > 0],
    per class c:  (∑_{b,i} dice·present) / max(∑_{b,i} present, 1),   result = (∑_c per class) / 2,
  written over the extended reals as the chain of host operations the reference runs after its two segment sums.
-/
import proofs.«404998_j80882824118629_3_alg».proof.ReferenceIdeal
import Idealize.ShloMosaic.PureOps.Ideal

noncomputable section

namespace Cert.ReferenceIdeal.Tail

open Cert.ReferenceIdeal Idealize.ShloMosaic

variable [Facts]
open Facts₀ Facts

/-- The dice tail as one function of the two accumulator arrays. -/
def tail (P C : FVec Ideal S2x2x33 .f32) : FVec Ideal S_ .f32 :=
  let sbg : FVec Ideal S2x2x1 .f32 := extractStridedSlice S2x2x1 ![0, 0, 0] P slices_S2x2x33_S2x2x1_0_0_0
  let si : FVec Ideal S2x2x32 .f32 := extractStridedSlice S2x2x32 ![0, 0, 1] P slices_S2x2x33_S2x2x32_0_0_1
  let ni : FVec Ideal S2x2x32 .f32 := extractStridedSlice S2x2x32 ![0, 0, 1] C slices_S2x2x33_S2x2x32_0_0_1
  let two : FVec Ideal S2x2x32 .f32 := broadcastInDim S2x2x32 ![] bcast_S_S2x2x32 (constant (F := Ideal) S_ .f32 0x40000000#32)
  let eps : FVec Ideal S2x2x32 .f32 := broadcastInDim S2x2x32 ![] bcast_S_S2x2x32 (constant (F := Ideal) S_ .f32 0x3727C5AC#32)
  let num : FVec Ideal S2x2x32 .f32 := addf (mulf two si) eps
  let den : FVec Ideal S2x2x32 .f32 :=
    addf (addf (addf (broadcastInDim S2x2x32 ![0, 1, 2] bcast_S2x2x1_S2x2x32_0_1_2 sbg) si) ni) eps
  let one : FVec Ideal S2x2x32 .f32 := broadcastInDim S2x2x32 ![] bcast_S_S2x2x32 (constant (F := Ideal) S_ .f32 0x3F800000#32)
  let dice : FVec Ideal S2x2x32 .f32 := subf one (Host.divf num den)
  let zero : FVec Ideal S2x2x32 .f32 := broadcastInDim S2x2x32 ![] bcast_S_S2x2x32 (constant (F := Ideal) S_ .f32 0x00000000#32)
  let present : FVec Ideal S2x2x32 .f32 := uitofp (F := Ideal) .f32 (cmpf (F := Ideal) .ogt ni zero)
  let sumDice : FVec Ideal S2 .f32 :=
    Host.reduceAdd (mulf dice present) (constant (F := Ideal) S_ .f32 0x00000000#32) reducesTo_S2x2x32_S2_d0_2 h_S_
  let sumPresent : FVec Ideal S2 .f32 :=
    Host.reduceAdd present (constant (F := Ideal) S_ .f32 0x00000000#32) reducesTo_S2x2x32_S2_d0_2 h_S_
  let perClass : FVec Ideal S2 .f32 :=
    Host.divf sumDice (maximumf sumPresent (broadcastInDim S2 ![] bcast_S_S2 (constant (F := Ideal) S_ .f32 0x3F800000#32)))
  Host.divf (Host.reduceAdd perClass (constant (F := Ideal) S_ .f32 0x00000000#32) reducesTo_S2_S_d0 h_S_)
    (constant (F := Ideal) S_ .f32 0x40000000#32)

end Cert.ReferenceIdeal.Tail

end
-- ==== Proof.LibScatterVec.lean ====
/-
  A vector scatter-add read at an index. A `stablehlo.scatter` with an `add` body whose operand is a vector of
  length `M`, whose scatter indices are one column `[E, 1]` of positions and whose updates are a vector of length `E`
  (a segment sum of a vector) adds update `e` onto the operand position that index word `e` names, the word read
  signed: position `r` of the result is the operand's plus the sum of the updates whose word reads `r`. A word outside
  `[0, M)` names no position and its update is dropped.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

/-- The dimension numbers of a vector scatter: the updates have no window axis, the operand's one axis is inserted
    and is the axis the single index component names, the index vector lies along axis 1 of the indices. -/
abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

/-- Update `e` reads its start index at row `e` of the index column. -/
private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

/-- The window on the operand's axis starts at update `e`'s index word, read signed. -/
private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

/-- The operand's axis is inserted: the window coordinate there is 0. -/
private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

/-- Update `e` lands on operand position `r` exactly when its index word reads `r`. -/
theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

/-- THE VECTOR SCATTER-ADD AT `r`: the operand's element plus the updates whose index word reads `r`. -/
theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.RefScatter.lean ====
/-
  The reference's two segment sums. A scatter-add of a vector of updates into a zero vector through a vector of
  index words leaves, at position j, the sum of the updates whose word reads j. The words are target + 33·row with
  0 ≤ target ≤ 32, so a word reads 33·r + s exactly when the update is in row r and its target is s: position
  (b, channel - 1, s) of the reshaped result is the sum over row 2·b + channel - 1 of the updates whose target is s.
-/
import proofs.«404998_j80882824118629_3_alg».proof.Proof.RefSoft
import proofs.«404998_j80882824118629_3_alg».proof.Proof.Tail
import proofs.«404998_j80882824118629_3_alg».proof.Proof.LibScatterVec
import Idealize.ShloMosaic.Lib.ValueIdx
import Idealize.ShloMosaic.Lib.ValueIdxRank1
import Idealize.ShloMosaic.Lib.IdealHost
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

open scoped BigOperators

/-! ## The flattened vector: 4 rows of 64·256·256 positions -/

/-- Position `l` of row `r` in the flattened vector of 4·4194304 updates. -/
def flat (r : Fin 4) (l : Fin 4194304) : Fin 16777216 :=
  ⟨4194304 * r.val + l.val, by have := r.isLt; have := l.isLt; omega⟩

/-- The row 2·b + c of batch `b` and kept channel `c`. -/
def row (b c : Fin 2) : Fin 4 := ⟨b.val * 2 + c.val, by have := b.isLt; have := c.isLt; omega⟩

/-- The position (2·b + c)·33 + s of segment `s` of row (b, c) in the vector of 132 sums. -/
def seg (b c : Fin 2) (s : Fin 33) : Fin 132 :=
  ⟨(b.val * 2 + c.val) * 33 + s.val, by have := b.isLt; have := c.isLt; have := s.isLt; omega⟩

theorem rowB_row (b c : Fin 2) : rowB (row b c) = b :=
  Fin.ext (by show (b.val * 2 + c.val) / 2 = b.val; have := c.isLt; omega)

theorem rowR_row (b c : Fin 2) : rowR (row b c) = c :=
  Fin.ext (by show (b.val * 2 + c.val) % 2 = c.val; have := c.isLt; omega)

/-- A sum over the flattened vector is the sum over the rows of the sums along each row. -/
theorem sum_flat (f : Fin 16777216 → EReal) :
    ∑ e, f e = ∑ r : Fin 4, ∑ l : Fin 4194304, f (flat r l) := by
  refine Eq.trans ?_ (Fintype.sum_prod_type' (fun r l => f (flat r l)))
  refine (Fintype.sum_equiv (finProdFinEquiv (m := 4) (n := 4194304)) (fun p => f (flat p.1 p.2)) f fun p => ?_).symm
  refine congrArg f (Fin.ext ?_)
  show 4194304 * p.1.val + p.2.val = p.2.val + 4194304 * p.1.val
  omega

/-! ## The index maps of the reshapes at these positions -/

theorem idx21_flat (r : Fin 4) (l : Fin 4194304) : idx_main_v21 (ix1 (flat r l)) = ix2 r l := by
  funext a
  match a with
  | ⟨0, _⟩ => exact Fin.ext (by show (4194304 * r.val + l.val) / 4194304 = r.val; have := l.isLt; omega)
  | ⟨1, _⟩ => exact Fin.ext (by show (4194304 * r.val + l.val) % 4194304 = l.val; have := l.isLt; omega)

theorem idx22_flat (r : Fin 4) (l : Fin 4194304) : idx_main_v22 (ix1 (flat r l)) = ix2 r l := by
  funext a
  match a with
  | ⟨0, _⟩ => exact Fin.ext (by show (4194304 * r.val + l.val) / 4194304 = r.val; have := l.isLt; omega)
  | ⟨1, _⟩ => exact Fin.ext (by show (4194304 * r.val + l.val) % 4194304 = l.val; have := l.isLt; omega)

theorem idx24_col (e : Fin 16777216) : idx_main_v24 (ix2 e (0 : Fin 1)) = ix1 e := by
  funext a
  match a with
  | ⟨0, _⟩ => rfl

theorem idx28_col (e : Fin 16777216) : idx_main_v28 (ix2 e (0 : Fin 1)) = ix1 e := by
  funext a
  match a with
  | ⟨0, _⟩ => rfl

theorem idx30_ix3 (b c : Fin 2) (s : Fin 33) : idx_main_v30 (ix3 b c s) = ix1 (seg b c s) := by
  funext a
  match a with
  | ⟨0, _⟩ => rfl

theorem idx31_ix3 (b c : Fin 2) (s : Fin 33) : idx_main_v31 (ix3 b c s) = ix1 (seg b c s) := by
  funext a
  match a with
  | ⟨0, _⟩ => rfl

/-! ## The operands of the two scatters at these positions -/

/-- The index word of position `l` of row `r`: the target word plus 33·r. -/
theorem word24 (x1 : IVec S2x3x64x256x256 32) (r : Fin 4) (l : Fin 4194304) :
    val_main_v24 (F := Ideal) x1 (ix2 (flat r l) (0 : Fin 1))
      = x1 (Spec.at5 (rowB r) (Spec.fg (rowR r)) l.val) + BitVec.ofNat 32 (33 * r.val) := by
  rw [val_main_v24_apply, idx24_col, val_main_v21_apply, idx21_flat, ref_ids]

theorem word28 (x1 : IVec S2x3x64x256x256 32) (r : Fin 4) (l : Fin 4194304) :
    val_main_v28 (F := Ideal) x1 (ix2 (flat r l) (0 : Fin 1))
      = x1 (Spec.at5 (rowB r) (Spec.fg (rowR r)) l.val) + BitVec.ofNat 32 (33 * r.val) := by
  rw [val_main_v28_apply, idx28_col, val_main_v21_apply, idx21_flat, ref_ids]

/-- The probability update at position `l` of row `r`. -/
theorem upd22 (x0 : FVec Ideal S2x3x64x256x256 .f32) (r : Fin 4) (l : Fin 4194304) :
    val_main_v22 (F := Ideal) x0 (ix1 (flat r l)) = Spec.soft x0 (rowB r) (Spec.fg (rowR r)) l.val := by
  rw [val_main_v22_apply, idx22_flat, ref_soft]

/-- Every counting update is one. -/
theorem upd26 (e : S16777216.Idx) : val_main_v26 (F := Ideal) e = 1 := by
  rw [val_main_v26_apply, val_main_cst_3_apply]
  exact Ideal.ofBits_one_f32

/-- Both scatters start from the zero vector. -/
theorem zero23 (k : S132.Idx) : val_main_v23 (F := Ideal) k = 0 := by
  rw [val_main_v23_apply, val_main_cst_2_apply]
  exact Ideal.ofBits_zero_f32

theorem zero27 (k : S132.Idx) : val_main_v27 (F := Ideal) k = 0 := by
  rw [val_main_v27_apply, val_main_cst_4_apply]
  exact Ideal.ofBits_zero_f32

/-! ## Which updates a position collects -/

/-- A word target + 33·r' with target ≤ 32 reads, signed, (2·b + c)·33 + s exactly when r' is the row of (b, c) and
    the target is s: the sum stays below 2³¹, so nothing wraps and the signed reading is the value. -/
theorem word_reads_iff (t : BitVec 32) (ht : t.toNat ≤ 32) (r' : Fin 4) (b c : Fin 2) (s : Fin 33) :
    (t + BitVec.ofNat 32 (33 * r'.val)).toInt = ((seg b c s).val : ℤ)
      ↔ r' = row b c ∧ t = BitVec.ofNat 32 s.val := by
  have hr' := r'.isLt
  have hb := b.isLt
  have hc := c.isLt
  have hs := s.isLt
  have hn : (t + BitVec.ofNat 32 (33 * r'.val)).toNat = t.toNat + 33 * r'.val := by
    rw [BitVec.toNat_add, BitVec.toNat_ofNat]; omega
  have ht' : t = BitVec.ofNat 32 s.val ↔ t.toNat = s.val := by
    rw [← BitVec.toNat_inj, BitVec.toNat_ofNat]
    have h : s.val % 2 ^ 32 = s.val := by omega
    rw [h]
  have hrow : r' = row b c ↔ r'.val = b.val * 2 + c.val := Fin.ext_iff
  rw [StableHlo.Predicate.toInt_eq_toNat_of_lt (by rw [hn]; omega), hn, ht', hrow]
  show ((t.toNat + 33 * r'.val : ℕ) : ℤ) = (((b.val * 2 + c.val) * 33 + s.val : ℕ) : ℤ) ↔ _
  omega

/-- The scatter of this program read at a position: the operand's element plus the updates whose word reads it. -/
theorem scatter_apply (x : FVec Ideal S132 .f32) (idx : IVec S16777216x1 32) (u : FVec Ideal S16777216 .f32)
    (k : Fin 132) :
    Host.scatterAdd (F := Ideal) scatter_S132_S16777216x1_S16777216_n_0_0_1 x idx u (ix1 k)
      = x (ix1 k) + ∑ e : Fin 16777216, if (idx (ix2 e (0 : Fin 1))).toInt = (k.val : ℤ) then u (ix1 e) else 0 :=
  Cert.LibScatterVec.vecScatterAdd_apply Facts₀.scatter_S132_S16777216x1_S16777216_n_0_0_1_wf x idx u k

/-- Position (b, c, s) collects exactly the updates of row 2·b + c whose target word is s. -/
theorem collect_row (x1 : IVec S2x3x64x256x256 32) (hr : ∀ i, (x1 i).toNat ≤ 32) (idx : IVec S16777216x1 32)
    (hidx : ∀ (r : Fin 4) (l : Fin 4194304), idx (ix2 (flat r l) (0 : Fin 1))
      = x1 (Spec.at5 (rowB r) (Spec.fg (rowR r)) l.val) + BitVec.ofNat 32 (33 * r.val))
    (u : FVec Ideal S16777216 .f32) (b c : Fin 2) (s : Fin 33) :
    (∑ e : Fin 16777216, if (idx (ix2 e (0 : Fin 1))).toInt = ((seg b c s).val : ℤ) then u (ix1 e) else 0)
      = ∑ l : Fin 4194304, if x1 (Spec.at5 b (Spec.fg c) l.val) = BitVec.ofNat 32 s.val
          then u (ix1 (flat (row b c) l)) else 0 := by
  rw [sum_flat]
  rw [Finset.sum_eq_single (row b c)]
  · refine Finset.sum_congr rfl fun l _ => ?_
    rw [hidx]
    refine (if_congr (word_reads_iff _ (hr _) (row b c) b c s) rfl rfl).trans ?_
    rw [rowB_row, rowR_row]
    exact if_congr (and_iff_right rfl) rfl rfl
  · intro r' _ hne
    refine Finset.sum_eq_zero fun l _ => ?_
    rw [hidx]
    exact if_neg fun h => hne ((word_reads_iff _ (hr _) r' b c s).1 h).1
  · intro h
    exact absurd (Finset.mem_univ _) h

/-- The reference's probability mass per segment. -/
theorem ref_psum (x0 : FVec Ideal S2x3x64x256x256 .f32) (x1 : IVec S2x3x64x256x256 32) (hr : ∀ i, (x1 i).toNat ≤ 32) :
    val_main_v30 (F := Ideal) x0 x1 = Spec.psumG x0 x1 := by
  funext j
  obtain ⟨b, c, s, rfl⟩ : ∃ b c s, j = ix3 b c s := ⟨j 0, j 1, j 2, eq_ix3 j⟩
  rw [val_main_v30_apply, idx30_ix3]
  unfold val_main_v25
  refine (scatter_apply _ _ _ _).trans ?_
  rw [zero23, zero_add, collect_row x1 hr _ (word24 x1) _ b c s]
  show _ = ∑ l ∈ Finset.range 4194304, Spec.termP x0 x1 b c s.val l
  rw [← Fin.sum_univ_eq_sum_range (fun l => Spec.termP x0 x1 b c s.val l) 4194304]
  refine Finset.sum_congr rfl fun l _ => ?_
  unfold Spec.termP
  rw [upd22, rowB_row, rowR_row]

/-- The reference's size per segment. -/
theorem ref_cnt (x1 : IVec S2x3x64x256x256 32) (hr : ∀ i, (x1 i).toNat ≤ 32) :
    val_main_v31 (F := Ideal) x1 = Spec.cntG x1 := by
  funext j
  obtain ⟨b, c, s, rfl⟩ : ∃ b c s, j = ix3 b c s := ⟨j 0, j 1, j 2, eq_ix3 j⟩
  rw [val_main_v31_apply, idx31_ix3]
  unfold val_main_v29
  refine (scatter_apply _ _ _ _).trans ?_
  rw [zero27, zero_add, collect_row x1 hr _ (word28 x1) _ b c s]
  show _ = ∑ l ∈ Finset.range 4194304, Spec.termC x1 b c s.val l
  rw [← Fin.sum_univ_eq_sum_range (fun l => Spec.termC x1 b c s.val l) 4194304]
  refine Finset.sum_congr rfl fun l _ => ?_
  unfold Spec.termC
  rw [upd26]

/-- The reference's result is the dice tail of the two. -/
theorem ref_value (x0 : FVec Ideal S2x3x64x256x256 .f32) (x1 : IVec S2x3x64x256x256 32) (hr : ∀ i, (x1 i).toNat ≤ 32) :
    val_main_v57 (F := Ideal) x0 x1 = Tail.tail (Spec.psumG x0 x1) (Spec.cntG x1) := by
  rw [← ref_psum x0 x1 hr, ← ref_cnt x1 hr]
  simp only [val_main_v57, val_main_v56, val_main_v55, val_main_v54, val_main_v53, val_main_v52, val_main_v51,
    val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_cst_5, val_main_cst_6, val_main_cst_7, val_main_cst_8,
    val_main_cst_9, val_main_cst_10, val_main_cst_11, val_main_cst_12, val_main_cst_13, val_main_cst_14, Tail.tail]

end Cert.ReferenceIdeal.RefValue

end
-- ==== Proof.KPayload.lean ====
/-
  One chunk of the kernel's inner loop, at the extended reals: the chunk is three channel rows of 2048 lanes; the body
  takes the softmax over the channels at each lane, builds for each of the two foreground channels the 40 × 2048
  indicator "target word = row number", and contracts it over the lanes with the two-row matrix (probability; one).
  So row n of the first result column is the sum over the lanes whose target is n of the probability, and of the
  second column the number of such lanes; each carried vector gains that.
-/
import proofs.«404998_j80882824118629_3_alg».proof.Proof.Gen.KernelIdeal.Skeleton
import proofs.«404998_j80882824118629_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Val

open Cert.KernelIdeal Cert.KernelIdeal.Gen Idealize.ShloMosaic Idealize.ShloMosaic.ValueIdx

/-- The channel maximum at lane `j` of a chunk. -/
def cMax (a : Vec Ideal S1x3x2048 .f32) (j : Fin 2048) : EReal :=
  (Finset.univ : Finset (Fin 3)).fold max ⊥ (fun c => a (ix3 0 c j))

/-- e^(a_c - M) at lane `j`. -/
def cExp (a : Vec Ideal S1x3x2048 .f32) (c : Fin 3) (j : Fin 2048) : EReal := Ideal.exp (a (ix3 0 c j) - cMax a j)

/-- The softmax over the channels at lane `j`. -/
def cSoft (a : Vec Ideal S1x3x2048 .f32) (c : Fin 3) (j : Fin 2048) : EReal :=
  Ideal.div (cExp a c j) (∑ c' : Fin 3, cExp a c' j)

/-- The id lattice: row `n` holds the word `n` in every lane. -/
theorem lattice_apply (n : Fin 40) (j : Fin 2048) :
    (iota .tc S40x2048 32 [0] iota_S40x2048_d0_w32 : IVec S40x2048 32) (ix2 n j) = BitVec.ofNat 32 n.val := by
  exact iota_single_apply .tc S40x2048 32 0 iota_S40x2048_d0_w32 (ix2 n j)

/-! ## Reshapes, row and column reads, and broadcasts, at an index -/

section Layout
variable {α : Type}

/-- The chunk viewed as three rows: row `c`, lane `j` is channel `c` at lane `j`. -/
theorem cast3_apply (v : S1x3x2048.Idx → α) (c : Fin 3) (j : Fin 2048) :
    shapeCast S3x2048 v shapeCasts_S1x3x2048_S3x2048 (ix2 c j) = v (ix3 0 c j) := by
  refine (shapeCast_dropUnit_apply ![3, 2048] v _ (ix2 c j)).trans (congrArg v ?_)
  funext a
  match a with
  | ⟨0, _⟩ => rfl
  | ⟨1, _⟩ => rfl
  | ⟨2, _⟩ => rfl

/-- A row of 2048 lanes repeated over the three channels reads its lane. -/
theorem bcastRow3_apply (y : S2048.Idx → α) (c : Fin 3) (j : Fin 2048) :
    broadcastTo S3x2048 (shapeCast S1x2048 y shapeCasts_S2048_S1x2048) broadcasts_S1x2048_S3x2048 (ix2 c j) = y (ix1 j) := by
  refine (broadcastTo_apply _ _ (ix2 c j) (ix2 0 j) fun a => ?_).trans ?_
  · match a with
    | ⟨0, _⟩ => rfl
    | ⟨1, _⟩ => rfl
  · refine (shapeCast_addUnit_apply ![2048] y _ (ix2 0 j)).trans (congrArg y ?_)
    funext a
    match a with
    | ⟨0, _⟩ => rfl

/-- A row of 2048 lanes repeated over the forty rows reads its lane. -/
theorem bcastRow40_apply (y : S1x2048.Idx → α) (n : Fin 40) (j : Fin 2048) :
    broadcastTo S40x2048 y broadcasts_S1x2048_S40x2048 (ix2 n j) = y (ix2 0 j) := by
  refine broadcastTo_apply _ _ (ix2 n j) (ix2 0 j) fun a => ?_
  match a with
  | ⟨0, _⟩ => rfl
  | ⟨1, _⟩ => rfl

/-- Row 1 of a three-row matrix. -/
theorem row1_apply (x : S3x2048.Idx → α) (j : Fin 2048) :
    extractStridedSlice S1x2048 ![1, 0] x slices_S3x2048_o1_0_S1x2048 (ix2 0 j) = x (ix2 1 j) := by
  refine extractStridedSlice_apply _ x _ (ix2 0 j) (ix2 1 j) fun a => ?_
  match a with
  | ⟨0, _⟩ => rfl
  | ⟨1, _⟩ => show j.val = 0 + j.val; omega

/-- Row 2 of a three-row matrix. -/
theorem row2_apply (x : S3x2048.Idx → α) (j : Fin 2048) :
    extractStridedSlice S1x2048 ![2, 0] x slices_S3x2048_o2_0_S1x2048 (ix2 0 j) = x (ix2 2 j) := by
  refine extractStridedSlice_apply _ x _ (ix2 0 j) (ix2 2 j) fun a => ?_
  match a with
  | ⟨0, _⟩ => rfl
  | ⟨1, _⟩ => show j.val = 0 + j.val; omega

/-- Column 0 of a two-column matrix, as a vector. -/
theorem col0_apply (x : S40x2.Idx → α) (n : Fin 40) :
    shapeCast S40 (extractStridedSlice S40x1 ![0, 0] x slices_S40x2_o0_0_S40x1) shapeCasts_S40x1_S40 (ix1 n) = x (ix2 n 0) := by
  refine (shapeCast_apply _ _ (ix1 n) (ix2 n 0) ?_).trans ?_
  · rw [Shape.rowMajor_val_two, Shape.rowMajor_val_one]; show n.val * 1 + 0 = n.val; omega
  · refine extractStridedSlice_apply _ x _ (ix2 n 0) (ix2 n 0) fun a => ?_
    match a with
    | ⟨0, _⟩ => show n.val = 0 + n.val; omega
    | ⟨1, _⟩ => rfl

/-- Column 1 of a two-column matrix, as a vector. -/
theorem col1_apply (x : S40x2.Idx → α) (n : Fin 40) :
    shapeCast S40 (extractStridedSlice S40x1 ![0, 1] x slices_S40x2_o0_1_S40x1) shapeCasts_S40x1_S40 (ix1 n) = x (ix2 n 1) := by
  refine (shapeCast_apply _ _ (ix1 n) (ix2 n 0) ?_).trans ?_
  · rw [Shape.rowMajor_val_two, Shape.rowMajor_val_one]; show n.val * 1 + 0 = n.val; omega
  · refine extractStridedSlice_apply _ x _ (ix2 n 0) (ix2 n 1) fun a => ?_
    match a with
    | ⟨0, _⟩ => show n.val = 0 + n.val; omega
    | ⟨1, _⟩ => rfl

end Layout

/-! ## The two reductions over the channels -/

/-- The index of a three-row matrix with channel `k` put back in front of lane `j`. -/
theorem lift_row (j : Fin 2048) (k : Fin 3) :
    (reduces_S3x2048_S2048 : S3x2048.Reduces [0] S2048).lift (ix1 j) k = ix2 k j := by
  funext a
  refine Fin.ext ?_
  match a with
  | ⟨0, _⟩ => rfl
  | ⟨1, _⟩ => rfl

/-- The word 0xFF800000 denotes -∞. -/
theorem negInf_f32 : Ideal.ofBits .f32 0xFF800000#32 = ⊥ := by
  simp [Ideal.ofBits, Ideal.ieee]

/-- The 16-bit word 0x3F80 denotes 1. -/
theorem one_bf16 : Ideal.ofBits .bf16 0x3F80#16 = 1 := IdealRules.sign_bit.ideal_onePat .bf16

/-- The maximum over the channels from -∞, at lane `j`. -/
theorem rowMax_apply (x : FVec Ideal S3x2048 .f32) (j : Fin 2048) :
    multiReduction (F := Ideal) .maximumf [0] S2048 x 0xFF800000#32 reduces_S3x2048_S2048 (.inl rfl) rfl (ix1 j)
      = (Finset.univ : Finset (Fin 3)).fold max ⊥ (fun c => x (ix2 c j)) := by
  refine (Ideal.multiReduction_maximumf_single x _ reduces_S3x2048_S2048 (.inl rfl) rfl (ix1 j)).trans ?_
  show (Finset.univ : Finset (Fin 3)).fold max (Ideal.ofBits .f32 0xFF800000#32) (x ∘ reduces_S3x2048_S2048.lift (ix1 j)) = _
  rw [negInf_f32]
  exact congrArg (fun f => (Finset.univ : Finset (Fin 3)).fold max ⊥ f) (funext fun k => congrArg x (lift_row j k))

/-- The sum over the channels, at lane `j`. -/
theorem rowSum_apply (x : FVec Ideal S3x2048 .f32) (j : Fin 2048) :
    multiReduction (F := Ideal) .add [0] S2048 x 0x00000000#32 reduces_S3x2048_S2048 (.inl rfl) rfl (ix1 j)
      = ∑ c : Fin 3, x (ix2 c j) := by
  refine (Ideal.multiReduction_add_single x _ reduces_S3x2048_S2048 (.inl rfl) rfl (ix1 j)).trans ?_
  exact Finset.sum_congr rfl fun k _ => congrArg x (lift_row j k)

/-- The exponential of a vector, entry by entry. -/
theorem exp_apply {s : Shape} {φ : FTy} (x : FVec Ideal s φ) (i : s.Idx) : exp x i = Ideal.exp (x i) := rfl

/-- The softmax of the chunk, entry by entry. -/
theorem pay5_apply (a : Vec Ideal S1x3x2048 .f32) (c : Fin 3) (j : Fin 2048) :
    k0_pay5 (F := Ideal) a (ix2 c j) = cSoft a c j := by
  unfold k0_pay5 cSoft cExp cMax
  simp only [divf_apply, exp_apply, subf_apply, bcastRow3_apply, cast3_apply]
  rw [rowSum_apply]
  simp only [exp_apply, subf_apply, bcastRow3_apply, cast3_apply]
  rw [rowMax_apply]
  simp only [cast3_apply]

/-! ## The indicator of "target word = row number" -/

/-- A one-bit word widened to 32 bits and read as a signed integer is 1 or 0. -/
theorem bit_toReal (b : BitVec 1) : ((((b.setWidth 32).toInt : ℤ) : ℝ) : EReal) = if b = 1#1 then 1 else 0 := by
  by_cases h : b = 1#1
  · subst h
    have e : (BitVec.setWidth 32 1#1).toInt = 1 := by decide
    rw [e, if_pos rfl]; simp
  · have h0 := eq_zero_of_ne_one h
    subst h0
    have e : (BitVec.setWidth 32 0#1).toInt = 0 := by decide
    rw [e, if_neg (by decide)]; simp

/-- Entry (n, j) of the indicator matrix built from a row of target words. -/
theorem ind_apply (v3 : IVec S40x2048 32) (hv3 : ∀ (n : Fin 40) (j : Fin 2048), v3 (ix2 n j) = BitVec.ofNat 32 n.val)
    (r : IVec S1x2048 32) (n : Fin 40) (j : Fin 2048) :
    (truncf .bf16 (sitofp (F := Ideal) .f32 (extui 32 (cmpi .eq (broadcastTo S40x2048 r broadcasts_S1x2048_S40x2048) v3) natLt_1_32))
        bitsLt_bf16_f32 : FVec Ideal S40x2048 .bf16) (ix2 n j)
      = if r (ix2 0 j) = BitVec.ofNat 32 n.val then (1 : EReal) else 0 := by
  show (((((IntOp.cmpi .eq (broadcastTo S40x2048 r broadcasts_S1x2048_S40x2048 (ix2 n j)) (v3 (ix2 n j))).setWidth 32).toInt : ℤ) : ℝ) : EReal) = _
  rw [bit_toReal, bcastRow40_apply, hv3]
  simp only [StableHlo.Predicate.cmpi_eq_iff]

/-! ## The two-row matrix (probability; one) -/

section Cat
variable {α : Type}

/-- Row 0 of the stacked pair is the first piece. -/
theorem cat_row0 (p q : S1x2048.Idx → α) (j : Fin 2048) :
    concatenate S2x2048 0 [⟨S1x2048, p⟩, ⟨S1x2048, q⟩] concatenates_S1x2048_S1x2048_S2x2048_d0 (ix2 0 j) = p (ix2 0 j) := by
  refine concatenate_pair_apply_left (t := S2x2048) 0 p q _ (ix2 (0 : Fin 2) j) rfl (ix2 (0 : Fin 1) j) fun b => ?_
  match b with
  | ⟨0, _⟩ => rfl
  | ⟨1, _⟩ => rfl

/-- Row 1 of the stacked pair is the second piece. -/
theorem cat_row1 (p q : S1x2048.Idx → α) (j : Fin 2048) :
    concatenate S2x2048 0 [⟨S1x2048, p⟩, ⟨S1x2048, q⟩] concatenates_S1x2048_S1x2048_S2x2048_d0 (ix2 1 j) = q (ix2 0 j) := by
  refine concatenate_pair_apply_right (t := S2x2048) 0 p q _ (ix2 (1 : Fin 2) j) rfl rfl (ix2 (0 : Fin 1) j) (fun b hb => ?_) rfl
  match b, hb with
  | ⟨0, _⟩, hb => exact absurd rfl hb
  | ⟨1, _⟩, _ => rfl

end Cat

/-! ## The contraction over the lanes -/

/-- Left operand, axis 0: the result's row. -/
theorem dot_lhs0 (i : S40x2.Idx) (k : dot_S40x2048_S2x2048_S40x2_1_1_0_0_n_n.contr.Idx) :
    (dot_S40x2048_S2x2048_S40x2_1_1_0_0_n_n.lhsIdx i k 0).val = (i 0).val := by
  simp [DotDims.lhsIdx, dot_S40x2048_S2x2048_S40x2_1_1_0_0_n_n]; rfl

/-- Left operand, axis 1: the contracted lane. -/
theorem dot_lhs1 (i : S40x2.Idx) (k : dot_S40x2048_S2x2048_S40x2_1_1_0_0_n_n.contr.Idx) :
    (dot_S40x2048_S2x2048_S40x2_1_1_0_0_n_n.lhsIdx i k 1).val = (k ⟨0, by decide⟩).val :=
  dot_S40x2048_S2x2048_S40x2_1_1_0_0_n_n.lhsIdx_val_of_single rfl i k

/-- Right operand, axis 0: the result's column. -/
theorem dot_rhs0 (i : S40x2.Idx) (k : dot_S40x2048_S2x2048_S40x2_1_1_0_0_n_n.contr.Idx) :
    (dot_S40x2048_S2x2048_S40x2_1_1_0_0_n_n.rhsIdx i k 0).val = (i 1).val := by
  simp [DotDims.rhsIdx, dot_S40x2048_S2x2048_S40x2_1_1_0_0_n_n]; rfl

/-- Right operand, axis 1: the contracted lane. -/
theorem dot_rhs1 (i : S40x2.Idx) (k : dot_S40x2048_S2x2048_S40x2_1_1_0_0_n_n.contr.Idx) :
    (dot_S40x2048_S2x2048_S40x2_1_1_0_0_n_n.rhsIdx i k 1).val = (k ⟨0, by decide⟩).val :=
  dot_S40x2048_S2x2048_S40x2_1_1_0_0_n_n.rhsIdx_val_of_single rfl i k

/-- The product onto the zero accumulator, entry (n, m): the sum over the lanes of row n of the left operand times
    row m of the right. -/
theorem mm_apply (E : FVec Ideal S40x2048 .bf16) (P : FVec Ideal S2x2048 .bf16) (n : Fin 40) (m : Fin 2) :
    (matmul dot_S40x2048_S2x2048_S40x2_1_1_0_0_n_n none E P (constant S40x2 .f32 0x00000000#32) : FVec Ideal S40x2 .f32) (ix2 n m)
      = ∑ j : Fin 2048, E (ix2 n j) * P (ix2 m j) := by
  refine (Ideal.matmul_constant_zero_apply dot_S40x2048_S2x2048_S40x2_1_1_0_0_n_n none E P (ix2 n m)).trans ?_
  rw [← Equiv.sum_comp (contrEquiv1 dot_S40x2048_S2x2048_S40x2_1_1_0_0_n_n 2048 rfl rfl).symm]
  refine Finset.sum_congr rfl fun j _ => ?_
  have hk := contrEquiv1_symm_val dot_S40x2048_S2x2048_S40x2_1_1_0_0_n_n 2048 rfl rfl j
  have hl : dot_S40x2048_S2x2048_S40x2_1_1_0_0_n_n.lhsIdx (ix2 n m)
      ((contrEquiv1 dot_S40x2048_S2x2048_S40x2_1_1_0_0_n_n 2048 rfl rfl).symm j) = ix2 n j := by
    funext ax
    refine Fin.ext ?_
    match ax with
    | ⟨0, _⟩ => exact dot_lhs0 _ _
    | ⟨1, _⟩ => exact (dot_lhs1 _ _).trans hk
  have hr : dot_S40x2048_S2x2048_S40x2_1_1_0_0_n_n.rhsIdx (ix2 n m)
      ((contrEquiv1 dot_S40x2048_S2x2048_S40x2_1_1_0_0_n_n 2048 rfl rfl).symm j) = ix2 m j := by
    funext ax
    refine Fin.ext ?_
    match ax with
    | ⟨0, _⟩ => exact dot_rhs0 _ _
    | ⟨1, _⟩ => exact (dot_rhs1 _ _).trans hk
  rw [hl, hr]

/-! ## The two products, column by column -/

/-- The target words viewed as three rows. -/
theorem pay4_apply (tw : Vec Ideal S1x3x2048 .i32) (c : Fin 3) (j : Fin 2048) :
    k0_pay4 (F := Ideal) tw (ix2 c j) = tw (ix3 0 c j) :=
  cast3_apply tw c j

/-- An indicator times a value keeps the value where the indicator is one. -/
theorem ind_mul (c : Prop) [Decidable c] (p : EReal) : (if c then (1 : EReal) else 0) * p = if c then p else 0 := by
  split <;> simp

/-- The constant row of the right operand is one. -/
theorem ones_apply (j : Fin 2048) :
    (broadcast S1x2048 (Scalar.ofBits (F := Ideal) .bf16 0x3F80#16) : FVec Ideal S1x2048 .bf16) (ix2 0 j) = 1 :=
  one_bf16

/-- Channel 1: row `n` of column 0 is the sum, over the lanes whose target is `n`, of the probability. -/
theorem pay6_col0 (v3 : IVec S40x2048 32) (hv3 : ∀ (n : Fin 40) (j : Fin 2048), v3 (ix2 n j) = BitVec.ofNat 32 n.val)
    (a : Vec Ideal S1x3x2048 .f32) (tw : Vec Ideal S1x3x2048 .i32) (n : Fin 40) :
    k0_pay6 (F := Ideal) v3 a tw (ix2 n 0)
      = ∑ j : Fin 2048, (if tw (ix3 0 1 j) = BitVec.ofNat 32 n.val then cSoft a 1 j else 0) := by
  unfold k0_pay6
  refine (mm_apply _ _ n 0).trans (Finset.sum_congr rfl fun j _ => ?_)
  rw [ind_apply v3 hv3, cat_row0, truncf_apply, row1_apply, row1_apply, pay4_apply, pay5_apply, ind_mul]

/-- Channel 1: row `n` of column 1 is the number of lanes whose target is `n`. -/
theorem pay6_col1 (v3 : IVec S40x2048 32) (hv3 : ∀ (n : Fin 40) (j : Fin 2048), v3 (ix2 n j) = BitVec.ofNat 32 n.val)
    (a : Vec Ideal S1x3x2048 .f32) (tw : Vec Ideal S1x3x2048 .i32) (n : Fin 40) :
    k0_pay6 (F := Ideal) v3 a tw (ix2 n 1)
      = ∑ j : Fin 2048, (if tw (ix3 0 1 j) = BitVec.ofNat 32 n.val then (1 : EReal) else 0) := by
  unfold k0_pay6
  refine (mm_apply _ _ n 1).trans (Finset.sum_congr rfl fun j _ => ?_)
  rw [ind_apply v3 hv3, cat_row1, ones_apply, row1_apply, pay4_apply, mul_one]

/-- Channel 2: row `n` of column 0 is the sum, over the lanes whose target is `n`, of the probability. -/
theorem pay9_col0 (v3 : IVec S40x2048 32) (hv3 : ∀ (n : Fin 40) (j : Fin 2048), v3 (ix2 n j) = BitVec.ofNat 32 n.val)
    (a : Vec Ideal S1x3x2048 .f32) (tw : Vec Ideal S1x3x2048 .i32) (n : Fin 40) :
    k0_pay9 (F := Ideal) v3 a tw (ix2 n 0)
      = ∑ j : Fin 2048, (if tw (ix3 0 2 j) = BitVec.ofNat 32 n.val then cSoft a 2 j else 0) := by
  unfold k0_pay9
  refine (mm_apply _ _ n 0).trans (Finset.sum_congr rfl fun j _ => ?_)
  rw [ind_apply v3 hv3, cat_row0, truncf_apply, row2_apply, row2_apply, pay4_apply, pay5_apply, ind_mul]

/-- Channel 2: row `n` of column 1 is the number of lanes whose target is `n`. -/
theorem pay9_col1 (v3 : IVec S40x2048 32) (hv3 : ∀ (n : Fin 40) (j : Fin 2048), v3 (ix2 n j) = BitVec.ofNat 32 n.val)
    (a : Vec Ideal S1x3x2048 .f32) (tw : Vec Ideal S1x3x2048 .i32) (n : Fin 40) :
    k0_pay9 (F := Ideal) v3 a tw (ix2 n 1)
      = ∑ j : Fin 2048, (if tw (ix3 0 2 j) = BitVec.ofNat 32 n.val then (1 : EReal) else 0) := by
  unfold k0_pay9
  refine (mm_apply _ _ n 1).trans (Finset.sum_congr rfl fun j _ => ?_)
  rw [ind_apply v3 hv3, cat_row1, ones_apply, row2_apply, pay4_apply, mul_one]

/-! ## What each carried vector gains -/

/-- The first carried vector gains, at row `n`, the probability of channel 1 summed over the lanes whose target is `n`. -/
theorem pay7_apply (v3 : IVec S40x2048 32) (hv3 : ∀ (n : Fin 40) (j : Fin 2048), v3 (ix2 n j) = BitVec.ofNat 32 n.val)
    (acc : FVec Ideal S40 .f32) (a : Vec Ideal S1x3x2048 .f32) (tw : Vec Ideal S1x3x2048 .i32) (n : Fin 40) :
    k0_pay7 (F := Ideal) v3 acc a tw (ix1 n)
      = acc (ix1 n) + ∑ j : Fin 2048, (if tw (ix3 0 1 j) = BitVec.ofNat 32 n.val then cSoft a 1 j else 0) := by
  show acc (ix1 n) + shapeCast S40 (extractStridedSlice S40x1 ![0, 0] (k0_pay6 (F := Ideal) v3 a tw) slices_S40x2_o0_0_S40x1)
      shapeCasts_S40x1_S40 (ix1 n) = _
  rw [col0_apply, pay6_col0 v3 hv3]

/-- The second gains the same for channel 2. -/
theorem pay10_apply (v3 : IVec S40x2048 32) (hv3 : ∀ (n : Fin 40) (j : Fin 2048), v3 (ix2 n j) = BitVec.ofNat 32 n.val)
    (acc : FVec Ideal S40 .f32) (a : Vec Ideal S1x3x2048 .f32) (tw : Vec Ideal S1x3x2048 .i32) (n : Fin 40) :
    k0_pay10 (F := Ideal) v3 acc a tw (ix1 n)
      = acc (ix1 n) + ∑ j : Fin 2048, (if tw (ix3 0 2 j) = BitVec.ofNat 32 n.val then cSoft a 2 j else 0) := by
  show acc (ix1 n) + shapeCast S40 (extractStridedSlice S40x1 ![0, 0] (k0_pay9 (F := Ideal) v3 a tw) slices_S40x2_o0_0_S40x1)
      shapeCasts_S40x1_S40 (ix1 n) = _
  rw [col0_apply, pay9_col0 v3 hv3]

/-- The third gains, at row `n`, the number of lanes whose channel-1 target is `n`. -/
theorem pay8_apply (v3 : IVec S40x2048 32) (hv3 : ∀ (n : Fin 40) (j : Fin 2048), v3 (ix2 n j) = BitVec.ofNat 32 n.val)
    (acc : FVec Ideal S40 .f32) (a : Vec Ideal S1x3x2048 .f32) (tw : Vec Ideal S1x3x2048 .i32) (n : Fin 40) :
    k0_pay8 (F := Ideal) v3 acc a tw (ix1 n)
      = acc (ix1 n) + ∑ j : Fin 2048, (if tw (ix3 0 1 j) = BitVec.ofNat 32 n.val then (1 : EReal) else 0) := by
  show acc (ix1 n) + shapeCast S40 (extractStridedSlice S40x1 ![0, 1] (k0_pay6 (F := Ideal) v3 a tw) slices_S40x2_o0_1_S40x1)
      shapeCasts_S40x1_S40 (ix1 n) = _
  rw [col1_apply, pay6_col1 v3 hv3]

/-- The fourth gains the same count for channel 2. -/
theorem pay17_apply (v3 : IVec S40x2048 32) (hv3 : ∀ (n : Fin 40) (j : Fin 2048), v3 (ix2 n j) = BitVec.ofNat 32 n.val)
    (acc : FVec Ideal S40 .f32) (a : Vec Ideal S1x3x2048 .f32) (tw : Vec Ideal S1x3x2048 .i32) (n : Fin 40) :
    k0_pay17 (F := Ideal) acc (k0_pay9 (F := Ideal) v3 a tw) (ix1 n)
      = acc (ix1 n) + ∑ j : Fin 2048, (if tw (ix3 0 2 j) = BitVec.ofNat 32 n.val then (1 : EReal) else 0) := by
  show acc (ix1 n) + shapeCast S40 (extractStridedSlice S40x1 ![0, 1] (k0_pay9 (F := Ideal) v3 a tw) slices_S40x2_o0_1_S40x1)
      shapeCasts_S40x1_S40 (ix1 n) = _
  rw [col1_apply, pay9_col1 v3 hv3]

end Cert.KernelIdeal.Val

end
-- ==== Proof.KLoop.lean ====
/-
  The kernel's inner loop over the 64 chunks of a staged block. One trip reads chunk k (lanes 2048·k … 2048·k + 2047
  of the three channel rows) of both blocks and adds, to each of the four carried vectors, that chunk's sum over the
  lanes whose target word is the row number — of the softmax probability (the first two: foreground channels 1, 2) or
  of one (the last two). From zero vectors, after K trips each carried vector is the sum over the first 2048·K lanes.
-/
import proofs.«404998_j80882824118629_3_alg».proof.Proof.Gen.KernelIdeal.Frame
import proofs.«404998_j80882824118629_3_alg».proof.Proof.KPayload
import proofs.«404998_j80882824118629_3_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Val

open Cert.KernelIdeal Cert.KernelIdeal.Gen Idealize.ShloMosaic.ValueIdx

section Trip

variable {F : FTy → Type} [FloatOps F]

/-- Chunk `k` of the predictions' block. -/
abbrev chunkX (arg2 : Memref sig .tc .vmem S1x3x131072 .f32) (X2 : BufTy.Contents (Elt F) arg2.view.ty)
    (k : Fin k0_t1_loop.trips) : Vec F S1x3x2048 .f32 :=
  View.readAt (Elt F) arg2.view (Rect.unit (s := S1x3x131072) (k0_off1 k) S1x3x2048.size (Facts₀.k0_off1_inb k)).toLoadRect X2

/-- Chunk `k` of the targets' block. -/
abbrev chunkT (arg3 : Memref sig .tc .vmem S1x3x131072 .i32) (X3 : BufTy.Contents (Elt F) arg3.view.ty)
    (k : Fin k0_t1_loop.trips) : Vec F S1x3x2048 .i32 :=
  View.readAt (Elt F) arg3.view (Rect.unit (s := S1x3x131072) (k0_off1 k) S1x3x2048.size (Facts₀.k0_off1_inb k)).toLoadRect X3

/-- One trip: each carried vector through its payload of chunk `k`. -/
theorem trip_eq (𝒱 : Variants) (c : Dev nD) (bd : Option 𝒱.V) (i : grid0.Coords) (arg2 : Memref sig .tc .vmem S1x3x131072 .f32) (harg2 : arg2.IsWhole) (arg3 : Memref sig .tc .vmem S1x3x131072 .i32) (harg3 : arg3.IsWhole) (arg4 : Memref sig .tc .vmem S1x2x33 .f32) (harg4 : arg4.IsWhole) (arg5 : Memref sig .tc .vmem S1x2x33 .f32) (harg5 : arg5.IsWhole) (arg6 : Memref sig .tc .vmem S2x40 .f32) (harg6 : arg6.IsWhole) (arg7 : Memref sig .tc .vmem S2x40 .f32) (harg7 : arg7.IsWhole)
    (v3 : IVec S40x2048 32) (X2 : BufTy.Contents (Elt F) arg2.view.ty) (X3 : BufTy.Contents (Elt F) arg3.view.ty)
    (k : Fin k0_t1_loop.trips) (acc : FVec F S40 .f32 × FVec F S40 .f32 × FVec F S40 .f32 × FVec F S40 .f32) :
    tripR_k0_t1 (F := F) 𝒱 c bd i arg2 harg2 arg3 harg3 arg4 harg4 arg5 harg5 arg6 harg6 arg7 harg7 v3 X2 X3 k acc
      = (k0_pay7 v3 acc.1 (chunkX arg2 X2 k) (chunkT arg3 X3 k), k0_pay10 v3 acc.2.1 (chunkX arg2 X2 k) (chunkT arg3 X3 k),
         k0_pay8 v3 acc.2.2.1 (chunkX arg2 X2 k) (chunkT arg3 X3 k),
         k0_pay17 acc.2.2.2 (k0_pay9 v3 (chunkX arg2 X2 k) (chunkT arg3 X3 k))) := by
  unfold tripR_k0_t1 trip_k0_t1
  dsimp only
  sl_unfold_words
  rfl

end Trip

theorem trip_lt (k : Fin k0_t1_loop.trips) : k.val < 64 := Nat.lt_of_lt_of_le k.isLt k0_t1_abs.2.1

/-- Chunk `k` at channel `ch`, lane `j` is the block at lane `2048·k + j`. -/
theorem chunkX_apply (arg2 : Memref sig .tc .vmem S1x3x131072 .f32) (harg2 : arg2.IsWhole) (x0 : Vec Ideal S1x3x131072 .f32)
    (k : Fin k0_t1_loop.trips) (ch : Fin 3) (j : Fin 2048) :
    chunkX (F := Ideal) arg2 (harg2.unread x0) k (ix3 0 ch j)
      = x0 (ix3 0 ch ⟨2048 * k.val + j.val, by have := trip_lt k; have := j.isLt; omega⟩) := by
  show View.ld (arg2.view.read (Elt Ideal) (harg2.unread x0)) _ _ = _
  rw [harg2.read_unread]
  show x0 _ = x0 _
  congr 1
  funext a
  apply Fin.ext
  have hoff := k0_off1_eq k
  match a with
  | ⟨0, _⟩ => show (k0_off1 k) 0 + 1 * 0 = 0; rw [hoff]; rfl
  | ⟨1, _⟩ => show (k0_off1 k) 1 + 1 * ch.val = ch.val; rw [hoff]; show 0 + 1 * ch.val = ch.val; omega
  | ⟨2, _⟩ => show (k0_off1 k) 2 + 1 * j.val = 2048 * k.val + j.val; rw [hoff]; show 2048 * k.val + 1 * j.val = _; omega

theorem chunkT_apply (arg3 : Memref sig .tc .vmem S1x3x131072 .i32) (harg3 : arg3.IsWhole) (x1 : Vec Ideal S1x3x131072 .i32)
    (k : Fin k0_t1_loop.trips) (ch : Fin 3) (j : Fin 2048) :
    chunkT (F := Ideal) arg3 (harg3.unread x1) k (ix3 0 ch j)
      = x1 (ix3 0 ch ⟨2048 * k.val + j.val, by have := trip_lt k; have := j.isLt; omega⟩) := by
  show View.ld (arg3.view.read (Elt Ideal) (harg3.unread x1)) _ _ = _
  rw [harg3.read_unread]
  show x1 _ = x1 _
  congr 1
  funext a
  apply Fin.ext
  have hoff := k0_off1_eq k
  match a with
  | ⟨0, _⟩ => show (k0_off1 k) 0 + 1 * 0 = 0; rw [hoff]; rfl
  | ⟨1, _⟩ => show (k0_off1 k) 1 + 1 * ch.val = ch.val; rw [hoff]; show 0 + 1 * ch.val = ch.val; omega
  | ⟨2, _⟩ => show (k0_off1 k) 2 + 1 * j.val = 2048 * k.val + j.val; rw [hoff]; show 2048 * k.val + 1 * j.val = _; omega

/-- The id lattice the loop compares the targets with. -/
abbrev lattice : IVec S40x2048 32 := iota .tc S40x2048 32 [0] Facts₀.iota_S40x2048_d0_w32

/-- A chunk's softmax at a lane is the global one when the chunk's three channel entries are the global array's. -/
theorem cSoft_eq (a : Vec Ideal S1x3x2048 .f32) (j : Fin 2048) (xg : Spec.SIn.Idx → EReal) (b : Fin 2) (l : ℕ)
    (h : ∀ c' : Fin 3, a (ix3 0 c' j) = xg (Spec.at5 b c' l)) (ch : Fin 3) :
    cSoft a ch j = Spec.soft xg b ch l := by
  simp only [cSoft, cExp, cMax, Spec.soft, Spec.expShift, Spec.chanMax, h]

/-- The zero vector the loop starts each carried value from. -/
theorem init_apply (n : Fin 40) :
    (k0_pay13 (F := Ideal)) (ix1 n) = 0 ∧ (k0_pay14 (F := Ideal)) (ix1 n) = 0
      ∧ (k0_pay15 (F := Ideal)) (ix1 n) = 0 ∧ (k0_pay16 (F := Ideal)) (ix1 n) = 0 :=
  ⟨Ideal.ofBits_zero_f32, Ideal.ofBits_zero_f32, Ideal.ofBits_zero_f32, Ideal.ofBits_zero_f32⟩

/-- AFTER `K` TRIPS each carried vector, at row `n`, is the sum over the block's first `2048·K` lanes of the lane's
    contribution to segment `n`: probability mass for the two foreground channels, then sizes. The block is the global
    arrays' batch `b` from spatial position `base` on. -/
theorem loop_sum (𝒱 : Variants) (c : Dev nD) (bd : Option 𝒱.V) (i : grid0.Coords) (arg2 : Memref sig .tc .vmem S1x3x131072 .f32) (harg2 : arg2.IsWhole) (arg3 : Memref sig .tc .vmem S1x3x131072 .i32) (harg3 : arg3.IsWhole) (arg4 : Memref sig .tc .vmem S1x2x33 .f32) (harg4 : arg4.IsWhole) (arg5 : Memref sig .tc .vmem S1x2x33 .f32) (harg5 : arg5.IsWhole) (arg6 : Memref sig .tc .vmem S2x40 .f32) (harg6 : arg6.IsWhole) (arg7 : Memref sig .tc .vmem S2x40 .f32) (harg7 : arg7.IsWhole)
    (x0 : Vec Ideal S1x3x131072 .f32) (x1 : Vec Ideal S1x3x131072 .i32)
    (xg : Spec.SIn.Idx → EReal) (tg : Spec.SIn.Idx → BitVec 32) (b : Fin 2) (base : ℕ)
    (hx : ∀ (ch : Fin 3) (q : Fin 131072), x0 (ix3 0 ch q) = xg (Spec.at5 b ch (base + q.val)))
    (ht : ∀ (ch : Fin 3) (q : Fin 131072), x1 (ix3 0 ch q) = tg (Spec.at5 b ch (base + q.val)))
    (n : Fin 40) : ∀ (K : ℕ), K ≤ 64 →
    (st_k0_t1 (F := Ideal) 𝒱 c bd i arg2 harg2 arg3 harg3 arg4 harg4 arg5 harg5 arg6 harg6 arg7 harg7 lattice (harg2.unread x0) (harg3.unread x1)
        (k0_pay13, k0_pay14, k0_pay15, k0_pay16) K).1 (ix1 n)
      = ∑ q ∈ Finset.range (K * 2048), Spec.termP xg tg b 0 n.val (base + q)
    ∧ (st_k0_t1 (F := Ideal) 𝒱 c bd i arg2 harg2 arg3 harg3 arg4 harg4 arg5 harg5 arg6 harg6 arg7 harg7 lattice (harg2.unread x0) (harg3.unread x1)
        (k0_pay13, k0_pay14, k0_pay15, k0_pay16) K).2.1 (ix1 n)
      = ∑ q ∈ Finset.range (K * 2048), Spec.termP xg tg b 1 n.val (base + q)
    ∧ (st_k0_t1 (F := Ideal) 𝒱 c bd i arg2 harg2 arg3 harg3 arg4 harg4 arg5 harg5 arg6 harg6 arg7 harg7 lattice (harg2.unread x0) (harg3.unread x1)
        (k0_pay13, k0_pay14, k0_pay15, k0_pay16) K).2.2.1 (ix1 n)
      = ∑ q ∈ Finset.range (K * 2048), Spec.termC tg b 0 n.val (base + q)
    ∧ (st_k0_t1 (F := Ideal) 𝒱 c bd i arg2 harg2 arg3 harg3 arg4 harg4 arg5 harg5 arg6 harg6 arg7 harg7 lattice (harg2.unread x0) (harg3.unread x1)
        (k0_pay13, k0_pay14, k0_pay15, k0_pay16) K).2.2.2 (ix1 n)
      = ∑ q ∈ Finset.range (K * 2048), Spec.termC tg b 1 n.val (base + q)
  | 0, _ => by
    rw [st_k0_t1_zero]
    simp only [Nat.zero_mul, Finset.range_zero, Finset.sum_empty]
    exact init_apply n
  | K + 1, hK => by
    obtain ⟨h1, h2, h3, h4⟩ := loop_sum 𝒱 c bd i arg2 harg2 arg3 harg3 arg4 harg4 arg5 harg5 arg6 harg6 arg7 harg7 x0 x1 xg tg b base hx ht n K (by omega)
    have hKt : K < k0_t1_loop.trips := by
      have : k0_t1_loop.trips = 64 := by decide
      omega
    have hs := st_k0_t1_succ (F := Ideal) 𝒱 c bd i arg2 harg2 arg3 harg3 arg4 harg4 arg5 harg5 arg6 harg6 arg7 harg7 lattice (harg2.unread x0) (harg3.unread x1)
      (k0_pay13, k0_pay14, k0_pay15, k0_pay16) ⟨K, hKt⟩
    have hsv : (⟨K, hKt⟩ : Fin k0_t1_loop.trips).val + 1 = K + 1 := rfl
    rw [hsv] at hs
    rw [hs, trip_eq]
    dsimp only
    -- the chunk's lanes are the block's lanes 2048·K + j, which are the global positions base + (2048·K + j)
    have hlane : ∀ j : Fin 2048, 2048 * K + j.val < 131072 := fun j => by have := j.isLt; omega
    have hxa : ∀ (j : Fin 2048) (c' : Fin 3),
        chunkX (F := Ideal) arg2 (harg2.unread x0) ⟨K, hKt⟩ (ix3 0 c' j) = xg (Spec.at5 b c' (base + (K * 2048 + j.val))) := fun j c' => by
      rw [chunkX_apply arg2 harg2 x0 ⟨K, hKt⟩ c' j, hx c' ⟨2048 * K + j.val, hlane j⟩]
      show xg (Spec.at5 b c' (base + (2048 * K + j.val))) = _
      rw [Nat.mul_comm 2048 K]
    have hta : ∀ (j : Fin 2048) (c' : Fin 3),
        chunkT (F := Ideal) arg3 (harg3.unread x1) ⟨K, hKt⟩ (ix3 0 c' j) = tg (Spec.at5 b c' (base + (K * 2048 + j.val))) := fun j c' => by
      rw [chunkT_apply arg3 harg3 x1 ⟨K, hKt⟩ c' j, ht c' ⟨2048 * K + j.val, hlane j⟩]
      show tg (Spec.at5 b c' (base + (2048 * K + j.val))) = _
      rw [Nat.mul_comm 2048 K]
    have hlat : ∀ (n : Fin 40) (j : Fin 2048), lattice (ix2 n j) = BitVec.ofNat 32 n.val := lattice_apply
    have hsplit : ∀ f : ℕ → EReal, ∑ q ∈ Finset.range ((K + 1) * 2048), f (base + q)
        = ∑ q ∈ Finset.range (K * 2048), f (base + q) + ∑ j : Fin 2048, f (base + (K * 2048 + j.val)) := fun f => by
      rw [Nat.succ_mul, Finset.sum_range_add, ← Fin.sum_univ_eq_sum_range (fun q => f (base + (K * 2048 + q)))]
    refine ⟨?_, ?_, ?_, ?_⟩
    · rw [pay7_apply lattice hlat, h1, hsplit]
      congr 1
      refine Finset.sum_congr rfl fun j _ => ?_
      rw [hta j 1, cSoft_eq _ j xg b (base + (K * 2048 + j.val)) (hxa j) 1]
      rfl
    · rw [pay10_apply lattice hlat, h2, hsplit]
      congr 1
      refine Finset.sum_congr rfl fun j _ => ?_
      rw [hta j 2, cSoft_eq _ j xg b (base + (K * 2048 + j.val)) (hxa j) 2]
      rfl
    · rw [pay8_apply lattice hlat, h3, hsplit]
      congr 1
      refine Finset.sum_congr rfl fun j _ => ?_
      rw [hta j 1]
      rfl
    · rw [pay17_apply lattice hlat, h4, hsplit]
      congr 1
      refine Finset.sum_congr rfl fun j _ => ?_
      rw [hta j 2]
      rfl

end Cert.KernelIdeal.Val

end
-- ==== Proof.KBlocks.lean ====
/-
  What the kernel's two input windows hold at a grid point: point t = 32·b + lt stages, of the flattened arrays
  [2, 3, 64·256·256], batch b's three channel rows at the spatial positions lt·131072 … lt·131072 + 131071; the
  flattening is the row-major reshape of the [2, 3, 64, 256, 256] arguments.
-/
import proofs.«404998_j80882824118629_3_alg».proof.Proof.Gen.KernelIdeal.Frame
import proofs.«404998_j80882824118629_3_alg».proof.Proof.Spec
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem

namespace Cert.KernelIdeal.Val

open Cert.KernelIdeal Cert.KernelIdeal.Gen Idealize.ShloMosaic.ValueIdx

variable (m : (ℓ : Loc nD τ sig) → Buf (Elt Ideal) ℓ)

/-- The predictions as the program was given them. -/
abbrev xin (c : Dev nD) : FVec Ideal S2x3x64x256x256 .f32 := m ((c : Thread nD τ).loc main_arg0)
/-- The targets as the program was given them. -/
abbrev tin (c : Dev nD) : IVec S2x3x64x256x256 32 := m ((c : Thread nD τ).loc main_arg1)

theorem batch_lt (t : Fin cfg0.N) : t.val / 32 < 2 := by
  have : cfg0.N = 64 := N_0
  have := t.isLt
  omega

/-- The flattened predictions the kernel's region finds: the row-major reshape of the predictions. -/
theorem V_v0 (c : Dev nD) :
    (V (F := Ideal) m c main_v0 : S2x3x4194304.Idx → EReal)
      = shapeCast S2x3x4194304 (xin m c) shapeCasts_S2x3x64x256x256_S2x3x4194304 := by
  show StableHlo.after (List.flatten [hostOps0]) (fun b => m (c, b)) (Proc.devRef .tc main_v0) = _
  simp only [hostOps0, List.flatten_cons, List.flatten_nil, List.append_nil]
  after_results
  rfl

/-- The flattened targets the kernel's region finds: the row-major reshape of the targets. -/
theorem V_v1 (c : Dev nD) :
    (V (F := Ideal) m c main_v1 : S2x3x4194304.Idx → BitVec 32)
      = shapeCast S2x3x4194304 (tin m c) shapeCasts_S2x3x64x256x256_S2x3x4194304 := by
  show StableHlo.after (List.flatten [hostOps0]) (fun b => m (c, b)) (Proc.devRef .tc main_v1) = _
  simp only [hostOps0, List.flatten_cons, List.flatten_nil, List.append_nil]
  after_results
  rfl

/-- The row-major reshape [2, 3, 64, 256, 256] → [2, 3, 64·256·256] read at an index: batch and channel are kept, and
    the spatial position `l` is split depth-major, `l = (d·256 + h)·256 + w`. -/
theorem flat_apply {α : Type} (x : S2x3x64x256x256.Idx → α) (b : Fin 2) (ch : Fin 3) (l : ℕ) (hl : l < 4194304) :
    shapeCast S2x3x4194304 x shapeCasts_S2x3x64x256x256_S2x3x4194304 (ix3 b ch ⟨l, hl⟩) = x (Spec.at5 b ch l) := by
  refine shapeCast_apply x _ _ _ ?_
  rw [Shape.rowMajor_val_five, Shape.rowMajor_val_three]
  have hb : b.val < 2 := b.isLt
  have hc : ch.val < 3 := ch.isLt
  show (((b.val * 3 + ch.val) * 64 + l / 65536 % 64) * 256 + l / 256 % 256) * 256 + l % 256
    = (b.val * 3 + ch.val) * 4194304 + l
  omega

/-- Window 0's block index at point `t` is (t / 32, 0, t % 32), at each of the 64 grid points. -/
theorem index0 : ∀ t : Fin grid0.N,
    win0_0.index t (0 : Fin 3) = t.val / 32 ∧ win0_0.index t 1 = 0 ∧ win0_0.index t 2 = t.val % 32 := by
  decide +kernel
/-- Window 1's block index at point `t` is (t / 32, 0, t % 32), at each of the 64 grid points. -/
theorem index1 : ∀ t : Fin grid0.N,
    win0_1.index t (0 : Fin 3) = t.val / 32 ∧ win0_1.index t 1 = 0 ∧ win0_1.index t 2 = t.val % 32 := by
  decide +kernel

/-- Lane `q` of tile `t % 32` is a spatial position of the flattened array. -/
theorem pos_lt (t : Fin cfg0.N) (q : Fin 131072) : (t.val % 32) * 131072 + q.val < 4194304 := by
  have := q.isLt
  omega

/-- Window 0's block at point `t`, read at (0, ch, q), is the flattened predictions at
    (t / 32, ch, (t % 32)·131072 + q): on each axis the block index times the block's extent plus the coordinate. -/
theorem iblk0_flat (c : Dev nD) (t : Fin cfg0.N) (ch : Fin 3) (q : Fin 131072) :
    (iblk (F := Ideal) m c 0 t : Vec Ideal S1x3x131072 .f32) (ix3 0 ch q)
      = (V (F := Ideal) m c main_v0 : S2x3x4194304.Idx → EReal)
          (ix3 ⟨t.val / 32, batch_lt t⟩ ch ⟨(t.val % 32) * 131072 + q.val, pos_lt t q⟩) := by
  obtain ⟨h0, h1, h2⟩ := index0 t
  unfold iblk
  rw [View.read_apply]
  show V m c main_v0 _ = V m c main_v0 _
  congr 1
  funext a
  apply Fin.ext
  match a with
  | ⟨0, _⟩ => show win0_0.index t 0 * 1 + 1 * (0 : ℕ) = t.val / 32; rw [h0]; omega
  | ⟨1, _⟩ => show win0_0.index t 1 * 3 + 1 * ch.val = ch.val; rw [h1]; omega
  | ⟨2, _⟩ => show win0_0.index t 2 * 131072 + 1 * q.val = (t.val % 32) * 131072 + q.val; rw [h2]; omega

/-- Window 1's block at point `t`, read at (0, ch, q), is the flattened targets at the same index. -/
theorem iblk1_flat (c : Dev nD) (t : Fin cfg0.N) (ch : Fin 3) (q : Fin 131072) :
    (iblk (F := Ideal) m c 1 t : Vec Ideal S1x3x131072 .i32) (ix3 0 ch q)
      = (V (F := Ideal) m c main_v1 : S2x3x4194304.Idx → BitVec 32)
          (ix3 ⟨t.val / 32, batch_lt t⟩ ch ⟨(t.val % 32) * 131072 + q.val, pos_lt t q⟩) := by
  obtain ⟨h0, h1, h2⟩ := index1 t
  unfold iblk
  rw [View.read_apply]
  show V m c main_v1 _ = V m c main_v1 _
  congr 1
  funext a
  apply Fin.ext
  match a with
  | ⟨0, _⟩ => show win0_1.index t 0 * 1 + 1 * (0 : ℕ) = t.val / 32; rw [h0]; omega
  | ⟨1, _⟩ => show win0_1.index t 1 * 3 + 1 * ch.val = ch.val; rw [h1]; omega
  | ⟨2, _⟩ => show win0_1.index t 2 * 131072 + 1 * q.val = (t.val % 32) * 131072 + q.val; rw [h2]; omega

/-- Window 0 at point `t`: channel `ch`, lane `q` of the block is the prediction of batch `t / 32`, channel `ch`, at
    spatial position `(t % 32)·131072 + q`. -/
theorem iblk_x (c : Dev nD) (t : Fin cfg0.N) (ch : Fin 3) (q : Fin 131072) :
    (iblk (F := Ideal) m c 0 t : Vec Ideal S1x3x131072 .f32) (ix3 0 ch q)
      = xin m c (Spec.at5 ⟨t.val / 32, batch_lt t⟩ ch ((t.val % 32) * 131072 + q.val)) := by
  refine (iblk0_flat m c t ch q).trans ?_
  rw [V_v0]
  exact flat_apply (xin m c) _ ch _ (pos_lt t q)

/-- Window 1 at point `t`: the same element of the targets. -/
theorem iblk_t (c : Dev nD) (t : Fin cfg0.N) (ch : Fin 3) (q : Fin 131072) :
    (iblk (F := Ideal) m c 1 t : Vec Ideal S1x3x131072 .i32) (ix3 0 ch q)
      = tin m c (Spec.at5 ⟨t.val / 32, batch_lt t⟩ ch ((t.val % 32) * 131072 + q.val)) := by
  refine (iblk1_flat m c t ch q).trans ?_
  rw [V_v1]
  exact flat_apply (tin m c) _ ch _ (pos_lt t q)

end Cert.KernelIdeal.Val

end
-- ==== Proof.KCases.lean ====
/-
  What one grid point leaves in the two [2, 40] accumulators (probability mass; size) and, at a batch's last tile, in
  the two [1, 2, 33] output blocks. The body adds the loop's four carried vectors to the accumulators' rows (row 0:
  foreground channel 1, row 1: channel 2), after zeroing the accumulators at a batch's first tile; at the last tile it
  copies the first 33 columns of each accumulator to its output block. By induction over the grid points, after tile
  lt of batch b each accumulator row holds the sum over the batch's first (lt + 1)·131072 spatial positions.
-/
import proofs.«404998_j80882824118629_3_alg».proof.Proof.KLoop
import proofs.«404998_j80882824118629_3_alg».proof.Proof.KBlocks
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Val

open Cert.KernelIdeal Cert.KernelIdeal.Gen Idealize.ShloMosaic.ValueIdx

/-! ## Rows of a [2, 40] buffer -/

/-- A piece of a [2, 40] buffer. -/
abbrev Pc := View.Piece (Elt Ideal) S2x40 .f32

theorem row1_emb (inb) (n : Fin 40) :
    (Rect.unit (s := S2x40) ![1, 0] ![1, 40] inb).emb (ix2 (0 : Fin 1) n) = ix2 (1 : Fin 2) n := by
  funext a
  apply Fin.ext
  match a with
  | ⟨0, _⟩ => rfl
  | ⟨1, _⟩ => show 0 + 1 * n.val = n.val; omega

theorem row0_emb (inb) (n : Fin 40) :
    (Rect.unit (s := S2x40) ![0, 0] ![1, 40] inb).emb (ix2 (0 : Fin 1) n) = ix2 (0 : Fin 2) n := by
  funext a
  apply Fin.ext
  match a with
  | ⟨0, _⟩ => rfl
  | ⟨1, _⟩ => show 0 + 1 * n.val = n.val; omega

/-- Under a last write of row 1, row 1 reads that write. -/
theorem canon_row1 (inb1) (w1 : (⟨2, ![1, 40]⟩ : Shape).Idx → EReal) (L : List Pc) (n : Fin 40) :
    View.canon ((⟨Rect.unit ![1, 0] ![1, 40] inb1, w1⟩ : Pc) :: L) (ix2 1 n) = w1 (ix2 0 n) := by
  rw [← row1_emb inb1 n]
  exact View.canon_cons_emb (Rect.unit (s := S2x40) ![1, 0] ![1, 40] inb1) w1 L (ix2 0 n)

/-- Row 0 is untouched by a write of row 1 and reads the write of row 0 before it. -/
theorem canon_row0 (inb1 inb0) (w1 w0 : (⟨2, ![1, 40]⟩ : Shape).Idx → EReal) (L : List Pc) (n : Fin 40) :
    View.canon ((⟨Rect.unit ![1, 0] ![1, 40] inb1, w1⟩ : Pc) :: (⟨Rect.unit ![0, 0] ![1, 40] inb0, w0⟩ : Pc) :: L) (ix2 0 n)
      = w0 (ix2 0 n) := by
  rw [View.canon_cons_of_not_mem _ _ (by
    rw [Rect.mem_set_unit]; intro h; exact absurd (h 0).1 (by show ¬ (1 : ℕ) ≤ 0; omega)), ← row0_emb inb0 n]
  exact View.canon_cons_emb (Rect.unit (s := S2x40) ![0, 0] ![1, 40] inb0) w0 L (ix2 0 n)

/-! ## The row payloads at an index -/

theorem succ_ix2 (n : Fin 40) : (fun a : Fin 1 => (ix2 (0 : Fin 1) n) a.succ) = ix1 n := by
  funext a; match a with | ⟨0, _⟩ => rfl

theorem cons_ix1 (n : Fin 40) : (Fin.cons ⟨0, Nat.one_pos⟩ (ix1 n) : (⟨2, ![1, 40]⟩ : Shape).Idx) = ix2 (0 : Fin 1) n := by
  funext a; match a with | ⟨0, _⟩ => rfl | ⟨1, _⟩ => rfl

/-- Old row plus carried vector: the payload stored back into row 0 of the mass accumulator. -/
theorem pay18_at (v9 : FVec Ideal S40 .f32) (v10 : Vec Ideal S1x40 .f32) (n : Fin 40) :
    k0_pay18 (F := Ideal) v9 v10 (ix2 0 n) = v10 (ix2 0 n) + v9 (ix1 n) := by
  unfold k0_pay18
  refine (shapeCast_addUnit_apply ![40] _ _ (ix2 0 n)).trans ?_
  rw [succ_ix2, addf_apply]
  refine congrArg (· + v9 (ix1 n)) ?_
  refine (shapeCast_dropUnit_apply ![40] v10 _ (ix1 n)).trans ?_
  rw [cons_ix1]

theorem pay19_at (v9 : FVec Ideal S40 .f32) (v16 : Vec Ideal S1x40 .f32) (n : Fin 40) :
    k0_pay19 (F := Ideal) v9 v16 (ix2 0 n) = v16 (ix2 0 n) + v9 (ix1 n) := by
  unfold k0_pay19
  refine (shapeCast_addUnit_apply ![40] _ _ (ix2 0 n)).trans ?_
  rw [succ_ix2, addf_apply]
  refine congrArg (· + v9 (ix1 n)) ?_
  refine (shapeCast_dropUnit_apply ![40] v16 _ (ix1 n)).trans ?_
  rw [cons_ix1]

theorem pay20_at (v9 : FVec Ideal S40 .f32) (v22 : Vec Ideal S1x40 .f32) (n : Fin 40) :
    k0_pay20 (F := Ideal) v9 v22 (ix2 0 n) = v22 (ix2 0 n) + v9 (ix1 n) := by
  unfold k0_pay20
  refine (shapeCast_addUnit_apply ![40] _ _ (ix2 0 n)).trans ?_
  rw [succ_ix2, addf_apply]
  refine congrArg (· + v9 (ix1 n)) ?_
  refine (shapeCast_dropUnit_apply ![40] v22 _ (ix1 n)).trans ?_
  rw [cons_ix1]

/-- The size accumulator's row 1: the carried vector added to the row read back as a vector. -/
theorem pay1_at (v9 : FVec Ideal S40 .f32) (v28 : Vec Ideal S1x40 .f32) (n : Fin 40) :
    k0_pay1 (F := Ideal) v9 (k0_pay21 (F := Ideal) v28) (ix2 0 n) = v28 (ix2 0 n) + v9 (ix1 n) := by
  unfold k0_pay1 k0_pay21
  refine (shapeCast_addUnit_apply ![40] _ _ (ix2 0 n)).trans ?_
  rw [succ_ix2, addf_apply]
  refine congrArg (· + v9 (ix1 n)) ?_
  refine (shapeCast_dropUnit_apply ![40] v28 _ (ix1 n)).trans ?_
  rw [cons_ix1]

/-! ## A row load -/

theorem load_row1 (arg : Memref sig .tc .vmem S2x40 .f32) (harg : arg.IsWhole) (xs : Vec Ideal S2x40 .f32) (inb) (n : Fin 40) :
    View.readAt (Elt Ideal) arg.view (Rect.unit (s := S2x40) ![1, 0] ![1, 40] inb).toLoadRect (harg.unread xs) (ix2 0 n)
      = xs (ix2 1 n) := by
  show View.ld (arg.view.read (Elt Ideal) (harg.unread xs)) _ _ = _
  rw [harg.read_unread]
  exact congrArg xs (row1_emb inb n)

theorem load_row0 (arg : Memref sig .tc .vmem S2x40 .f32) (harg : arg.IsWhole) (xs : Vec Ideal S2x40 .f32) (inb) (n : Fin 40) :
    View.readAt (Elt Ideal) arg.view (Rect.unit (s := S2x40) ![0, 0] ![1, 40] inb).toLoadRect (harg.unread xs) (ix2 0 n)
      = xs (ix2 0 n) := by
  show View.ld (arg.view.read (Elt Ideal) (harg.unread xs)) _ _ = _
  rw [harg.read_unread]
  exact congrArg xs (row0_emb inb n)

/-- The loop's four carried vectors after its 64 trips, at a point's blocks. -/
abbrev loopEnd (c : Dev nD) (i : grid0.Coords) (arg2 : Memref sig .tc .vmem S1x3x131072 .f32) (harg2 : arg2.IsWhole) (arg3 : Memref sig .tc .vmem S1x3x131072 .i32) (harg3 : arg3.IsWhole) (arg4 : Memref sig .tc .vmem S1x2x33 .f32) (harg4 : arg4.IsWhole) (arg5 : Memref sig .tc .vmem S1x2x33 .f32) (harg5 : arg5.IsWhole) (arg6 : Memref sig .tc .vmem S2x40 .f32) (harg6 : arg6.IsWhole) (arg7 : Memref sig .tc .vmem S2x40 .f32) (harg7 : arg7.IsWhole)
    (x0 : Vec Ideal S1x3x131072 .f32) (x1 : Vec Ideal S1x3x131072 .i32) :
    FVec Ideal S40 .f32 × FVec Ideal S40 .f32 × FVec Ideal S40 .f32 × FVec Ideal S40 .f32 :=
  st_k0_t1 (F := Ideal) Variants.none c none i arg2 harg2 arg3 harg3 arg4 harg4 arg5 harg5 arg6 harg6 arg7 harg7 lattice (harg2.unread x0) (harg3.unread x1)
    (k0_pay13, k0_pay14, k0_pay15, k0_pay16) k0_t1_loop.trips

/-! ## A middle tile: each accumulator row gains its carried vector -/

section CaseB

variable (c : Dev nD) (i : grid0.Coords) (arg2 : Memref sig .tc .vmem S1x3x131072 .f32) (harg2 : arg2.IsWhole) (arg3 : Memref sig .tc .vmem S1x3x131072 .i32) (harg3 : arg3.IsWhole) (arg4 : Memref sig .tc .vmem S1x2x33 .f32) (harg4 : arg4.IsWhole) (arg5 : Memref sig .tc .vmem S1x2x33 .f32) (harg5 : arg5.IsWhole) (arg6 : Memref sig .tc .vmem S2x40 .f32) (harg6 : arg6.IsWhole) (arg7 : Memref sig .tc .vmem S2x40 .f32) (harg7 : arg7.IsWhole) (hc0 : ¬cond0_0 i) (hc1 : ¬cond0_1 i)
  (x0 : Vec Ideal S1x3x131072 .f32) (x1 : Vec Ideal S1x3x131072 .i32) (xs0 xs1 : Vec Ideal S2x40 .f32)

theorem soutB0_row0 (n : Fin 40) :
    sout0_B_0 (F := Ideal) c i arg2 harg2 arg3 harg3 arg4 harg4 arg5 harg5 arg6 harg6 arg7 harg7 hc0 hc1 x0 x1 xs0 xs1 (ix2 0 n)
      = xs0 (ix2 0 n) + (loopEnd c i arg2 harg2 arg3 harg3 arg4 harg4 arg5 harg5 arg6 harg6 arg7 harg7 x0 x1).1 (ix1 n) := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  refine (canon_row0 _ _ _ _ _ n).trans ?_
  rw [pay18_at, load_row0 arg6 harg6 xs0]

theorem soutB0_row1 (n : Fin 40) :
    sout0_B_0 (F := Ideal) c i arg2 harg2 arg3 harg3 arg4 harg4 arg5 harg5 arg6 harg6 arg7 harg7 hc0 hc1 x0 x1 xs0 xs1 (ix2 1 n)
      = xs0 (ix2 1 n) + (loopEnd c i arg2 harg2 arg3 harg3 arg4 harg4 arg5 harg5 arg6 harg6 arg7 harg7 x0 x1).2.1 (ix1 n) := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  refine (canon_row1 _ _ _ n).trans ?_
  rw [pay20_at, load_row1 arg6 harg6 xs0]

theorem soutB1_row0 (n : Fin 40) :
    sout0_B_1 (F := Ideal) c i arg2 harg2 arg3 harg3 arg4 harg4 arg5 harg5 arg6 harg6 arg7 harg7 hc0 hc1 x0 x1 xs0 xs1 (ix2 0 n)
      = xs1 (ix2 0 n) + (loopEnd c i arg2 harg2 arg3 harg3 arg4 harg4 arg5 harg5 arg6 harg6 arg7 harg7 x0 x1).2.2.1 (ix1 n) := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  refine (canon_row0 _ _ _ _ _ n).trans ?_
  rw [pay19_at, load_row0 arg7 harg7 xs1]

theorem soutB1_row1 (n : Fin 40) :
    sout0_B_1 (F := Ideal) c i arg2 harg2 arg3 harg3 arg4 harg4 arg5 harg5 arg6 harg6 arg7 harg7 hc0 hc1 x0 x1 xs0 xs1 (ix2 1 n)
      = xs1 (ix2 1 n) + (loopEnd c i arg2 harg2 arg3 harg3 arg4 harg4 arg5 harg5 arg6 harg6 arg7 harg7 x0 x1).2.2.2 (ix1 n) := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  refine (canon_row1 _ _ _ n).trans ?_
  rw [pay1_at, load_row1 arg7 harg7 xs1]

end CaseB

/-! ## A batch's first tile: the accumulators are zeroed first -/

theorem hz2 : (![0, 0] : Fin 2 → Nat) = fun _ => 0 := funext fun a => by fin_cases a <;> rfl

theorem hz3 : (![0, 0, 0] : Fin 3 → Nat) = fun _ => 0 := funext fun a => by fin_cases a <;> rfl

/-- The zero block the reset stores. -/
theorem pay11_at (y : S2x40.Idx) : k0_pay11 (F := Ideal) y = 0 := by
  unfold k0_pay11
  rw [shapeCast_self]
  exact Ideal.ofBits_zero_f32

theorem pay12_at (y : S2x40.Idx) : k0_pay12 (F := Ideal) y = 0 := by
  unfold k0_pay12
  rw [shapeCast_self]
  exact Ideal.ofBits_zero_f32

/-- Row 0 read back right after a store of the whole buffer reads that store. -/
theorem readCov_whole_row0 (arg : Memref sig .tc .vmem S2x40 .f32) (z : S2x40.Idx → EReal) (inbw inb0) (n : Fin 40) :
    arg.view.readCov [(⟨Rect.unit ![0, 0] S2x40.size inbw, z⟩ : Pc)] (Rect.unit (s := S2x40) ![0, 0] ![1, 40] inb0).toLoadRect (ix2 0 n)
      = z (ix2 0 n) := by
  rw [View.readCov_eq_canon']
  show View.canon _ ((Rect.unit (s := S2x40) ![0, 0] ![1, 40] inb0).emb (ix2 0 n)) = _
  rw [row0_emb, View.canon_unit_zero hz2]

/-- Row 1 read back after a store of the whole buffer and then of row 0 reads the whole store. -/
theorem readCov_row0_whole_row1 (arg : Memref sig .tc .vmem S2x40 .f32) (z : S2x40.Idx → EReal)
    (w0 : (⟨2, ![1, 40]⟩ : Shape).Idx → EReal) (inbw inb0 inb1) (n : Fin 40) :
    arg.view.readCov [(⟨Rect.unit ![0, 0] ![1, 40] inb0, w0⟩ : Pc), (⟨Rect.unit ![0, 0] S2x40.size inbw, z⟩ : Pc)]
        (Rect.unit (s := S2x40) ![1, 0] ![1, 40] inb1).toLoadRect (ix2 0 n)
      = z (ix2 1 n) := by
  rw [View.readCov_eq_canon']
  show View.canon _ ((Rect.unit (s := S2x40) ![1, 0] ![1, 40] inb1).emb (ix2 0 n)) = _
  rw [row1_emb, View.canon_cons_of_not_mem _ _ (by
    rw [Rect.mem_set_unit]; intro h; exact absurd (h 0).2 (by show ¬ (1 : ℕ) < 0 + 1; omega)), View.canon_unit_zero hz2]

section CaseA

variable (c : Dev nD) (i : grid0.Coords) (arg2 : Memref sig .tc .vmem S1x3x131072 .f32) (harg2 : arg2.IsWhole) (arg3 : Memref sig .tc .vmem S1x3x131072 .i32) (harg3 : arg3.IsWhole) (arg4 : Memref sig .tc .vmem S1x2x33 .f32) (harg4 : arg4.IsWhole) (arg5 : Memref sig .tc .vmem S1x2x33 .f32) (harg5 : arg5.IsWhole) (arg6 : Memref sig .tc .vmem S2x40 .f32) (harg6 : arg6.IsWhole) (arg7 : Memref sig .tc .vmem S2x40 .f32) (harg7 : arg7.IsWhole) (hc0 : cond0_0 i) (hc1 : ¬cond0_1 i)
  (x0 : Vec Ideal S1x3x131072 .f32) (x1 : Vec Ideal S1x3x131072 .i32)

theorem soutA0_row0 (n : Fin 40) :
    sout0_A_0 (F := Ideal) c i arg2 harg2 arg3 harg3 arg4 harg4 arg5 harg5 arg6 harg6 arg7 harg7 hc0 hc1 x0 x1 (ix2 0 n) = 0 + (loopEnd c i arg2 harg2 arg3 harg3 arg4 harg4 arg5 harg5 arg6 harg6 arg7 harg7 x0 x1).1 (ix1 n) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  refine (canon_row0 _ _ _ _ _ n).trans ?_
  rw [pay18_at, readCov_whole_row0, pay11_at]

theorem soutA0_row1 (n : Fin 40) :
    sout0_A_0 (F := Ideal) c i arg2 harg2 arg3 harg3 arg4 harg4 arg5 harg5 arg6 harg6 arg7 harg7 hc0 hc1 x0 x1 (ix2 1 n) = 0 + (loopEnd c i arg2 harg2 arg3 harg3 arg4 harg4 arg5 harg5 arg6 harg6 arg7 harg7 x0 x1).2.1 (ix1 n) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  refine (canon_row1 _ _ _ n).trans ?_
  rw [pay20_at, readCov_row0_whole_row1, pay11_at]

theorem soutA1_row0 (n : Fin 40) :
    sout0_A_1 (F := Ideal) c i arg2 harg2 arg3 harg3 arg4 harg4 arg5 harg5 arg6 harg6 arg7 harg7 hc0 hc1 x0 x1 (ix2 0 n) = 0 + (loopEnd c i arg2 harg2 arg3 harg3 arg4 harg4 arg5 harg5 arg6 harg6 arg7 harg7 x0 x1).2.2.1 (ix1 n) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  refine (canon_row0 _ _ _ _ _ n).trans ?_
  rw [pay19_at, readCov_whole_row0, pay12_at]

theorem soutA1_row1 (n : Fin 40) :
    sout0_A_1 (F := Ideal) c i arg2 harg2 arg3 harg3 arg4 harg4 arg5 harg5 arg6 harg6 arg7 harg7 hc0 hc1 x0 x1 (ix2 1 n) = 0 + (loopEnd c i arg2 harg2 arg3 harg3 arg4 harg4 arg5 harg5 arg6 harg6 arg7 harg7 x0 x1).2.2.2 (ix1 n) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  refine (canon_row1 _ _ _ n).trans ?_
  rw [pay1_at, readCov_row0_whole_row1, pay12_at]

end CaseA

/-! ## A batch's last tile: the accumulators gain their vectors, then their first 33 columns are the outputs -/

theorem succ_ix3 (r : Fin 2) (s : Fin 33) : (fun a : Fin 2 => (ix3 (0 : Fin 1) r s) a.succ) = ix2 r s := by
  funext a; match a with | ⟨0, _⟩ => rfl | ⟨1, _⟩ => rfl

theorem pay2_at (v : Vec Ideal S2x33 .f32) (r : Fin 2) (s : Fin 33) : k0_pay2 (F := Ideal) v (ix3 0 r s) = v (ix2 r s) := by
  unfold k0_pay2
  refine (shapeCast_addUnit_apply ![2, 33] _ _ (ix3 0 r s)).trans ?_
  rw [succ_ix3]

theorem pay3_at (v : Vec Ideal S2x33 .f32) (r : Fin 2) (s : Fin 33) : k0_pay3 (F := Ideal) v (ix3 0 r s) = v (ix2 r s) := by
  unfold k0_pay3
  refine (shapeCast_addUnit_apply ![2, 33] _ _ (ix3 0 r s)).trans ?_
  rw [succ_ix3]

/-- A segment id as a column of the 40-wide accumulator. -/
def col (s : Fin 33) : Fin 40 := ⟨s.val, by omega⟩

/-- The first 33 columns read back after the two row stores read those stores. -/
theorem readCov_rows (arg : Memref sig .tc .vmem S2x40 .f32) (inb1 inb0 inbB)
    (w1 w0 : (⟨2, ![1, 40]⟩ : Shape).Idx → EReal) (r : Fin 2) (s : Fin 33) :
    arg.view.readCov [(⟨Rect.unit ![1, 0] ![1, 40] inb1, w1⟩ : Pc), (⟨Rect.unit ![0, 0] ![1, 40] inb0, w0⟩ : Pc)]
        (Rect.unit (s := S2x40) ![0, 0] ![2, 33] inbB).toLoadRect (ix2 r s)
      = View.canon [(⟨Rect.unit ![1, 0] ![1, 40] inb1, w1⟩ : Pc), (⟨Rect.unit ![0, 0] ![1, 40] inb0, w0⟩ : Pc)] (ix2 r (col s)) := by
  rw [View.readCov_eq_canon']
  show View.canon _ ((Rect.unit (s := S2x40) ![0, 0] ![2, 33] inbB).emb (ix2 r s)) = _
  refine congrArg _ ?_
  funext a
  apply Fin.ext
  match a with
  | ⟨0, _⟩ => show 0 + 1 * r.val = r.val; omega
  | ⟨1, _⟩ => show 0 + 1 * s.val = s.val; omega

section CaseC

variable (c : Dev nD) (i : grid0.Coords) (arg2 : Memref sig .tc .vmem S1x3x131072 .f32) (harg2 : arg2.IsWhole) (arg3 : Memref sig .tc .vmem S1x3x131072 .i32) (harg3 : arg3.IsWhole) (arg4 : Memref sig .tc .vmem S1x2x33 .f32) (harg4 : arg4.IsWhole) (arg5 : Memref sig .tc .vmem S1x2x33 .f32) (harg5 : arg5.IsWhole) (arg6 : Memref sig .tc .vmem S2x40 .f32) (harg6 : arg6.IsWhole) (arg7 : Memref sig .tc .vmem S2x40 .f32) (harg7 : arg7.IsWhole) (hc0 : ¬cond0_0 i) (hc1 : cond0_1 i)
  (x0 : Vec Ideal S1x3x131072 .f32) (x1 : Vec Ideal S1x3x131072 .i32) (xs0 xs1 : Vec Ideal S2x40 .f32)

theorem soutC0_row0 (n : Fin 40) :
    sout0_C_0 (F := Ideal) c i arg2 harg2 arg3 harg3 arg4 harg4 arg5 harg5 arg6 harg6 arg7 harg7 hc0 hc1 x0 x1 xs0 xs1 (ix2 0 n)
      = xs0 (ix2 0 n) + (loopEnd c i arg2 harg2 arg3 harg3 arg4 harg4 arg5 harg5 arg6 harg6 arg7 harg7 x0 x1).1 (ix1 n) := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  refine (canon_row0 _ _ _ _ _ n).trans ?_
  rw [pay18_at, load_row0 arg6 harg6 xs0]

theorem soutC0_row1 (n : Fin 40) :
    sout0_C_0 (F := Ideal) c i arg2 harg2 arg3 harg3 arg4 harg4 arg5 harg5 arg6 harg6 arg7 harg7 hc0 hc1 x0 x1 xs0 xs1 (ix2 1 n)
      = xs0 (ix2 1 n) + (loopEnd c i arg2 harg2 arg3 harg3 arg4 harg4 arg5 harg5 arg6 harg6 arg7 harg7 x0 x1).2.1 (ix1 n) := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  refine (canon_row1 _ _ _ n).trans ?_
  rw [pay20_at, load_row1 arg6 harg6 xs0]

theorem soutC1_row0 (n : Fin 40) :
    sout0_C_1 (F := Ideal) c i arg2 harg2 arg3 harg3 arg4 harg4 arg5 harg5 arg6 harg6 arg7 harg7 hc0 hc1 x0 x1 xs0 xs1 (ix2 0 n)
      = xs1 (ix2 0 n) + (loopEnd c i arg2 harg2 arg3 harg3 arg4 harg4 arg5 harg5 arg6 harg6 arg7 harg7 x0 x1).2.2.1 (ix1 n) := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  refine (canon_row0 _ _ _ _ _ n).trans ?_
  rw [pay19_at, load_row0 arg7 harg7 xs1]

theorem soutC1_row1 (n : Fin 40) :
    sout0_C_1 (F := Ideal) c i arg2 harg2 arg3 harg3 arg4 harg4 arg5 harg5 arg6 harg6 arg7 harg7 hc0 hc1 x0 x1 xs0 xs1 (ix2 1 n)
      = xs1 (ix2 1 n) + (loopEnd c i arg2 harg2 arg3 harg3 arg4 harg4 arg5 harg5 arg6 harg6 arg7 harg7 x0 x1).2.2.2 (ix1 n) := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  refine (canon_row1 _ _ _ n).trans ?_
  rw [pay1_at, load_row1 arg7 harg7 xs1]

/-- The mass output block is the updated mass accumulator's first 33 columns. -/
theorem outC2_row0 (s : Fin 33) :
    out0_C_2 (F := Ideal) c i arg2 harg2 arg3 harg3 arg4 harg4 arg5 harg5 arg6 harg6 arg7 harg7 hc0 hc1 x0 x1 xs0 xs1 (ix3 0 0 s)
      = xs0 (ix2 0 (col s)) + (loopEnd c i arg2 harg2 arg3 harg3 arg4 harg4 arg5 harg5 arg6 harg6 arg7 harg7 x0 x1).1 (ix1 (col s)) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3, pay2_at, readCov_rows]
  refine (canon_row0 _ _ _ _ _ (col s)).trans ?_
  rw [pay18_at, load_row0 arg6 harg6 xs0]

theorem outC2_row1 (s : Fin 33) :
    out0_C_2 (F := Ideal) c i arg2 harg2 arg3 harg3 arg4 harg4 arg5 harg5 arg6 harg6 arg7 harg7 hc0 hc1 x0 x1 xs0 xs1 (ix3 0 1 s)
      = xs0 (ix2 1 (col s)) + (loopEnd c i arg2 harg2 arg3 harg3 arg4 harg4 arg5 harg5 arg6 harg6 arg7 harg7 x0 x1).2.1 (ix1 (col s)) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3, pay2_at, readCov_rows]
  refine (canon_row1 _ _ _ (col s)).trans ?_
  rw [pay20_at, load_row1 arg6 harg6 xs0]

/-- The size output block is the updated size accumulator's first 33 columns. -/
theorem outC3_row0 (s : Fin 33) :
    out0_C_3 (F := Ideal) c i arg2 harg2 arg3 harg3 arg4 harg4 arg5 harg5 arg6 harg6 arg7 harg7 hc0 hc1 x0 x1 xs0 xs1 (ix3 0 0 s)
      = xs1 (ix2 0 (col s)) + (loopEnd c i arg2 harg2 arg3 harg3 arg4 harg4 arg5 harg5 arg6 harg6 arg7 harg7 x0 x1).2.2.1 (ix1 (col s)) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, pay3_at, readCov_rows]
  refine (canon_row0 _ _ _ _ _ (col s)).trans ?_
  rw [pay19_at, load_row0 arg7 harg7 xs1]

theorem outC3_row1 (s : Fin 33) :
    out0_C_3 (F := Ideal) c i arg2 harg2 arg3 harg3 arg4 harg4 arg5 harg5 arg6 harg6 arg7 harg7 hc0 hc1 x0 x1 xs0 xs1 (ix3 0 1 s)
      = xs1 (ix2 1 (col s)) + (loopEnd c i arg2 harg2 arg3 harg3 arg4 harg4 arg5 harg5 arg6 harg6 arg7 harg7 x0 x1).2.2.2 (ix1 (col s)) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, pay3_at, readCov_rows]
  refine (canon_row1 _ _ _ (col s)).trans ?_
  rw [pay1_at, load_row1 arg7 harg7 xs1]

end CaseC

/-! ## Point by point -/

section Points

variable (m : (ℓ : Loc nD τ sig) → Buf (Elt Ideal) ℓ)

/-- The loop's carried vectors at grid point `t`. -/
abbrev loopAt (c : Dev nD) (t : Fin cfg0.N) :
    FVec Ideal S40 .f32 × FVec Ideal S40 .f32 × FVec Ideal S40 .f32 × FVec Ideal S40 .f32 :=
  loopEnd c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)

theorem trips_mul : k0_t1_loop.trips * 2048 = 131072 := by
  have : k0_t1_loop.trips = 64 := by decide
  rw [this]

/-- At point `t` (batch `t / 32`, tile `t % 32`) the loop sums the tile's 131072 positions. -/
theorem loop_at (c : Dev nD) (t : Fin cfg0.N) (n : Fin 40) :
    (loopAt m c t).1 (ix1 n)
      = ∑ q ∈ Finset.range 131072, Spec.termP (xin m c) (tin m c) ⟨t.val / 32, batch_lt t⟩ 0 n.val (t.val % 32 * 131072 + q)
    ∧ (loopAt m c t).2.1 (ix1 n)
      = ∑ q ∈ Finset.range 131072, Spec.termP (xin m c) (tin m c) ⟨t.val / 32, batch_lt t⟩ 1 n.val (t.val % 32 * 131072 + q)
    ∧ (loopAt m c t).2.2.1 (ix1 n)
      = ∑ q ∈ Finset.range 131072, Spec.termC (tin m c) ⟨t.val / 32, batch_lt t⟩ 0 n.val (t.val % 32 * 131072 + q)
    ∧ (loopAt m c t).2.2.2 (ix1 n)
      = ∑ q ∈ Finset.range 131072, Spec.termC (tin m c) ⟨t.val / 32, batch_lt t⟩ 1 n.val (t.val % 32 * 131072 + q) := by
  have h := loop_sum Variants.none c none (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (xin m c) (tin m c)
    ⟨t.val / 32, batch_lt t⟩ (t.val % 32 * 131072) (fun ch q => iblk_x m c t ch q) (fun ch q => iblk_t m c t ch q) n
    k0_t1_loop.trips k0_t1_abs.2.1
  rw [trips_mul] at h
  exact h

/-- The probability mass of segment `s`, foreground row `r`, batch `b`, over the first `N` spatial positions. -/
def massUpTo (c : Dev nD) (b r : Fin 2) (s N : ℕ) : EReal :=
  ∑ l ∈ Finset.range N, Spec.termP (xin m c) (tin m c) b r s l

/-- The size of that segment over the first `N` positions. -/
def sizeUpTo (c : Dev nD) (b r : Fin 2) (s N : ℕ) : EReal :=
  ∑ l ∈ Finset.range N, Spec.termC (tin m c) b r s l

theorem massUpTo_add (c : Dev nD) (b r : Fin 2) (s N : ℕ) :
    massUpTo m c b r s N + ∑ q ∈ Finset.range 131072, Spec.termP (xin m c) (tin m c) b r s (N + q)
      = massUpTo m c b r s (N + 131072) := by
  unfold massUpTo; rw [Finset.sum_range_add]

theorem sizeUpTo_add (c : Dev nD) (b r : Fin 2) (s N : ℕ) :
    sizeUpTo m c b r s N + ∑ q ∈ Finset.range 131072, Spec.termC (tin m c) b r s (N + q)
      = sizeUpTo m c b r s (N + 131072) := by
  unfold sizeUpTo; rw [Finset.sum_range_add]

theorem batch_lt' (n : ℕ) (h : n < cfg0.N) : n / 32 < 2 := batch_lt ⟨n, h⟩

/-- THE INVARIANT: after grid point `n` the two accumulators hold, at row `r` and column `s`, the mass and the size of
    segment `s` over the batch's first `(n % 32 + 1)·131072` positions. -/
theorem acc_at (c : Dev nD) : ∀ (n : ℕ) (h : n < cfg0.N) (r : Fin 2) (s : Fin 40),
    ((outsAt0 (F := Ideal) m c n h).2.2.1 : Vec Ideal S2x40 .f32) (ix2 r s)
        = massUpTo m c ⟨n / 32, batch_lt' n h⟩ r s.val ((n % 32 + 1) * 131072)
      ∧ ((outsAt0 (F := Ideal) m c n h).2.2.2 : Vec Ideal S2x40 .f32) (ix2 r s)
        = sizeUpTo m c ⟨n / 32, batch_lt' n h⟩ r s.val ((n % 32 + 1) * 131072)
  | n, h, r, s => by
    have hN : cfg0.N = 64 := N_0
    obtain ⟨l1, l2, l3, l4⟩ := loop_at m c ⟨n, h⟩ s
    by_cases h0 : n % 32 = 0
    · -- the batch's first tile
      have h1 : ¬ n % 32 = 31 := by omega
      rw [outsAt0_A m c ⟨n, h⟩ h0 h1]
      dsimp only
      have e0 : n % 32 * 131072 = 0 := by rw [h0]
      have eN : (n % 32 + 1) * 131072 = 0 + 131072 := by rw [h0]
      rw [eN, ← massUpTo_add, ← sizeUpTo_add]
      rw [e0] at l1 l2 l3 l4
      have hm0 : ∀ r', massUpTo m c ⟨n / 32, batch_lt' n h⟩ r' s.val 0 = 0 := fun r' => by unfold massUpTo; simp
      have hs0 : ∀ r', sizeUpTo m c ⟨n / 32, batch_lt' n h⟩ r' s.val 0 = 0 := fun r' => by unfold sizeUpTo; simp
      rw [hm0, hs0]
      match r with
      | ⟨0, _⟩ =>
        exact ⟨(soutA0_row0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) s).trans (congrArg (0 + ·) l1),
          (soutA1_row0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) s).trans (congrArg (0 + ·) l3)⟩
      | ⟨1, _⟩ =>
        exact ⟨(soutA0_row1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) s).trans (congrArg (0 + ·) l2),
          (soutA1_row1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) s).trans (congrArg (0 + ·) l4)⟩
    · -- a later tile: the accumulators as the point before left them, plus this tile
      have hn1 : n - 1 < cfg0.N := Nat.lt_of_le_of_lt (Nat.sub_le _ _) h
      obtain ⟨p1, p2⟩ := acc_at c (n - 1) hn1 r s
      have eb : (n - 1) / 32 = n / 32 := by omega
      have et : ((n - 1) % 32 + 1) * 131072 = n % 32 * 131072 := by
        have : (n - 1) % 32 + 1 = n % 32 := by omega
        rw [this]
      have eN : (n % 32 + 1) * 131072 = n % 32 * 131072 + 131072 := by ring
      have p1' : ((outsAt0 (F := Ideal) m c (n - 1) hn1).2.2.1 : Vec Ideal S2x40 .f32) (ix2 r s)
          = massUpTo m c ⟨n / 32, batch_lt' n h⟩ r s.val (n % 32 * 131072) := by
        rw [p1]; congr 1 <;> first | exact Fin.ext eb | exact et
      have p2' : ((outsAt0 (F := Ideal) m c (n - 1) hn1).2.2.2 : Vec Ideal S2x40 .f32) (ix2 r s)
          = sizeUpTo m c ⟨n / 32, batch_lt' n h⟩ r s.val (n % 32 * 131072) := by
        rw [p2]; congr 1 <;> first | exact Fin.ext eb | exact et
      rw [eN, ← massUpTo_add, ← sizeUpTo_add]
      by_cases h1 : n % 32 = 31
      · rw [outsAt0_C m c ⟨n, h⟩ h0 h1]
        dsimp only
        match r with
        | ⟨0, _⟩ =>
          exact ⟨(soutC0_row0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) _ _ s).trans (congrArg₂ (· + ·) p1' l1),
            (soutC1_row0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) _ _ s).trans (congrArg₂ (· + ·) p2' l3)⟩
        | ⟨1, _⟩ =>
          exact ⟨(soutC0_row1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) _ _ s).trans (congrArg₂ (· + ·) p1' l2),
            (soutC1_row1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) _ _ s).trans (congrArg₂ (· + ·) p2' l4)⟩
      · rw [outsAt0_B m c ⟨n, h⟩ h0 h1]
        dsimp only
        match r with
        | ⟨0, _⟩ =>
          exact ⟨(soutB0_row0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) _ _ s).trans (congrArg₂ (· + ·) p1' l1),
            (soutB1_row0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) _ _ s).trans (congrArg₂ (· + ·) p2' l3)⟩
        | ⟨1, _⟩ =>
          exact ⟨(soutB0_row1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) _ _ s).trans (congrArg₂ (· + ·) p1' l2),
            (soutB1_row1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩) _ _ s).trans (congrArg₂ (· + ·) p2' l4)⟩
  termination_by n => n
  decreasing_by omega

end Points

/-! ## What is written back -/

section Outputs

variable (m : (ℓ : Loc nD τ sig) → Buf (Elt Ideal) ℓ)

/-- At a batch's last tile the mass output block holds, at (channel row `r`, segment `s`), the batch's whole sum. -/
theorem out_mass (c : Dev nD) (t : Fin cfg0.N) (hl : t.val % 32 = 31) (r : Fin 2) (s : Fin 33) :
    ((outsAt0 (F := Ideal) m c t.val t.isLt).1 : Vec Ideal S1x2x33 .f32) (ix3 0 r s)
      = massUpTo m c ⟨t.val / 32, batch_lt t⟩ r s.val 4194304 := by
  have hN : cfg0.N = 64 := N_0
  have h0 : ¬ t.val % 32 = 0 := by omega
  have hn1 : t.val - 1 < cfg0.N := Nat.lt_of_le_of_lt (Nat.sub_le _ _) t.isLt
  obtain ⟨p1, _⟩ := acc_at m c (t.val - 1) hn1 r (col s)
  obtain ⟨l1, l2, _, _⟩ := loop_at m c t (col s)
  have eb : (t.val - 1) / 32 = t.val / 32 := by omega
  have et : ((t.val - 1) % 32 + 1) * 131072 = t.val % 32 * 131072 := by
    have : (t.val - 1) % 32 + 1 = t.val % 32 := by omega
    rw [this]
  have p1' : ((outsAt0 (F := Ideal) m c (t.val - 1) hn1).2.2.1 : Vec Ideal S2x40 .f32) (ix2 r (col s))
      = massUpTo m c ⟨t.val / 32, batch_lt t⟩ r s.val (t.val % 32 * 131072) := by
    rw [p1]; congr 1 <;> first | exact Fin.ext eb | exact et
  have eN : (4194304 : ℕ) = t.val % 32 * 131072 + 131072 := by rw [hl]
  rw [eN, ← massUpTo_add, outsAt0_C m c t h0 hl]
  dsimp only
  match r with
  | ⟨0, _⟩ =>
    exact (outC2_row0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _ s).trans (congrArg₂ (· + ·) p1' l1)
  | ⟨1, _⟩ =>
    exact (outC2_row1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _ s).trans (congrArg₂ (· + ·) p1' l2)

/-- And the size output block the batch's whole count. -/
theorem out_size (c : Dev nD) (t : Fin cfg0.N) (hl : t.val % 32 = 31) (r : Fin 2) (s : Fin 33) :
    ((outsAt0 (F := Ideal) m c t.val t.isLt).2.1 : Vec Ideal S1x2x33 .f32) (ix3 0 r s)
      = sizeUpTo m c ⟨t.val / 32, batch_lt t⟩ r s.val 4194304 := by
  have hN : cfg0.N = 64 := N_0
  have h0 : ¬ t.val % 32 = 0 := by omega
  have hn1 : t.val - 1 < cfg0.N := Nat.lt_of_le_of_lt (Nat.sub_le _ _) t.isLt
  obtain ⟨_, p2⟩ := acc_at m c (t.val - 1) hn1 r (col s)
  obtain ⟨_, _, l3, l4⟩ := loop_at m c t (col s)
  have eb : (t.val - 1) / 32 = t.val / 32 := by omega
  have et : ((t.val - 1) % 32 + 1) * 131072 = t.val % 32 * 131072 := by
    have : (t.val - 1) % 32 + 1 = t.val % 32 := by omega
    rw [this]
  have p2' : ((outsAt0 (F := Ideal) m c (t.val - 1) hn1).2.2.2 : Vec Ideal S2x40 .f32) (ix2 r (col s))
      = sizeUpTo m c ⟨t.val / 32, batch_lt t⟩ r s.val (t.val % 32 * 131072) := by
    rw [p2]; congr 1 <;> first | exact Fin.ext eb | exact et
  have eN : (4194304 : ℕ) = t.val % 32 * 131072 + 131072 := by rw [hl]
  rw [eN, ← sizeUpTo_add, outsAt0_C m c t h0 hl]
  dsimp only
  match r with
  | ⟨0, _⟩ =>
    exact (outC3_row0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _ s).trans (congrArg₂ (· + ·) p2' l3)
  | ⟨1, _⟩ =>
    exact (outC3_row1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _ s).trans (congrArg₂ (· + ·) p2' l4)

/-- The whole sums are the specification's. -/
theorem massUpTo_all (c : Dev nD) (j : Spec.SAcc.Idx) :
    massUpTo m c (j 0) (j 1) (j 2).val 4194304 = Spec.psumG (xin m c) (tin m c) j := rfl

theorem sizeUpTo_all (c : Dev nD) (j : Spec.SAcc.Idx) :
    sizeUpTo m c (j 0) (j 1) (j 2).val 4194304 = Spec.cntG (tin m c) j := rfl

end Outputs

end Cert.KernelIdeal.Val

end
-- ==== Proof.KFinal.lean ====
/-
  The kernel's result. Each of the two [2, 2, 33] result arrays is written back once per batch, at the batch's last
  tile, block (b, 0, 0) of it from the output block; those two blocks cover the array, so the arrays end at the
  per-segment probability mass and size of the specification. The host operations after the region are the dice tail
  of those two arrays.
-/
import proofs.«404998_j80882824118629_3_alg».proof.Proof.KCases
import proofs.«404998_j80882824118629_3_alg».proof.Proof.Tail
import proofs.«404998_j80882824118629_3_alg».proof.Proof.Gen.ReferenceIdeal
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx

variable (m : (ℓ : Loc nD τ sig) → Buf (Elt Ideal) ℓ) (ρ : Dev nD → PrngReg)

/-- The two output windows' block index at point `t` is (t / 32, 0, 0), at each of the 64 grid points. -/
theorem index2 : ∀ t : Fin grid0.N,
    win0_2.index t (0 : Fin 3) = t.val / 32 ∧ win0_2.index t 1 = 0 ∧ win0_2.index t 2 = 0 := by
  decide +kernel
theorem index3 : ∀ t : Fin grid0.N,
    win0_3.index t (0 : Fin 3) = t.val / 32 ∧ win0_3.index t 1 = 0 ∧ win0_3.index t 2 = 0 := by
  decide +kernel

/-- A [1, 2, 33] output block `X` that is row `t / 32` of an array `G` is, written back at point `t`, the block of `G`
    the mass window has there: block index (t / 32, 0, 0), nothing of the block cut off. -/
theorem flushed2_of (c : Dev nD) (t : Fin cfg0.N) (G : S2x2x33.Idx → EReal) (X : Vec Ideal S1x2x33 .f32)
    (hX : ∀ (r : Fin 2) (s : Fin 33), X (ix3 0 r s) = G (ix3 ⟨t.val / 32, batch_lt t⟩ r s)) :
    (cfg0.win 2).cut (grid0.coords t) X = ((cfg0.win 2).blk t).view.read (Elt Ideal) G := by
  obtain ⟨h0, h1, h2⟩ := index2 t
  funext y
  rw [View.read_apply]
  have hy0 : (y 0).val = 0 := by have h : (y 0).val < 1 := (y 0).isLt; omega
  have hy1 : (y 1).val < 2 := (y 1).isLt
  have hy2 : (y 2).val < 33 := (y 2).isLt
  show X (win0_2.xinj (grid0.coords t) y) = G (((cfg0.win 2).blk t).view.emb y)
  have e1 : win0_2.xinj (grid0.coords t) y = ix3 0 ⟨(y 1).val, hy1⟩ ⟨(y 2).val, hy2⟩ := by
    funext a
    apply Fin.ext
    match a with
    | ⟨0, _⟩ => exact hy0
    | ⟨1, _⟩ => rfl
    | ⟨2, _⟩ => rfl
  have e2 : ((cfg0.win 2).blk t).view.emb y = ix3 ⟨t.val / 32, batch_lt t⟩ ⟨(y 1).val, hy1⟩ ⟨(y 2).val, hy2⟩ := by
    funext a
    apply Fin.ext
    match a with
    | ⟨0, _⟩ => show win0_2.index t 0 * 1 + 1 * (y 0).val = t.val / 32; rw [h0, hy0]; omega
    | ⟨1, _⟩ => show win0_2.index t 1 * 2 + 1 * (y 1).val = (y 1).val; rw [h1]; omega
    | ⟨2, _⟩ => show win0_2.index t 2 * 33 + 1 * (y 2).val = (y 2).val; rw [h2]; omega
  rw [e1, e2]
  exact hX _ _

/-- Every index (b, r, s) of the mass array lies in the block that batch `b`'s last tile, point 32·b + 31, writes back. -/
theorem cover2 (i : S2x2x33.Idx) :
    ∃ t : Fin cfg0.N, (cfg0.win 2).flush t = true ∧ i ∈ ((cfg0.win 2).blk t).view.set := by
  have hN : cfg0.N = 64 := N_0
  have hi0 : (i 0).val < 2 := (i 0).isLt
  have hi1 : (i 1).val < 2 := (i 1).isLt
  have hi2 : (i 2).val < 33 := (i 2).isLt
  have ht : 32 * (i 0).val + 31 < cfg0.N := by omega
  obtain ⟨h0, h1, h2⟩ := index2 ⟨32 * (i 0).val + 31, ht⟩
  refine ⟨⟨32 * (i 0).val + 31, ht⟩, (flush0_2 _).mpr (by show (32 * (i 0).val + 31) % 32 = 31; omega), ?_⟩
  show i ∈ ((View.whole main_v2_0).slice (win0_2.rect ⟨32 * (i 0).val + 31, ht⟩)).set
  rw [View.set_slice_whole, Rect.mem_set_unit]
  intro a
  match a with
  | ⟨0, _⟩ =>
    show win0_2.index ⟨32 * (i 0).val + 31, ht⟩ 0 * 1 ≤ (i 0).val
      ∧ (i 0).val < win0_2.index ⟨32 * (i 0).val + 31, ht⟩ 0 * 1 + 1
    rw [h0]
    show (32 * (i 0).val + 31) / 32 * 1 ≤ (i 0).val ∧ (i 0).val < (32 * (i 0).val + 31) / 32 * 1 + 1
    omega
  | ⟨1, _⟩ =>
    show win0_2.index ⟨32 * (i 0).val + 31, ht⟩ 1 * 2 ≤ (i 1).val
      ∧ (i 1).val < win0_2.index ⟨32 * (i 0).val + 31, ht⟩ 1 * 2 + 2
    rw [h1]; omega
  | ⟨2, _⟩ =>
    show win0_2.index ⟨32 * (i 0).val + 31, ht⟩ 2 * 33 ≤ (i 2).val
      ∧ (i 2).val < win0_2.index ⟨32 * (i 0).val + 31, ht⟩ 2 * 33 + 33
    rw [h2]; omega

/-- A [1, 2, 33] output block `X` that is row `t / 32` of an array `G` is, written back at point `t`, the block of `G`
    the size window has there: block index (t / 32, 0, 0), nothing of the block cut off. -/
theorem flushed3_of (c : Dev nD) (t : Fin cfg0.N) (G : S2x2x33.Idx → EReal) (X : Vec Ideal S1x2x33 .f32)
    (hX : ∀ (r : Fin 2) (s : Fin 33), X (ix3 0 r s) = G (ix3 ⟨t.val / 32, batch_lt t⟩ r s)) :
    (cfg0.win 3).cut (grid0.coords t) X = ((cfg0.win 3).blk t).view.read (Elt Ideal) G := by
  obtain ⟨h0, h1, h2⟩ := index3 t
  funext y
  rw [View.read_apply]
  have hy0 : (y 0).val = 0 := by have h : (y 0).val < 1 := (y 0).isLt; omega
  have hy1 : (y 1).val < 2 := (y 1).isLt
  have hy2 : (y 2).val < 33 := (y 2).isLt
  show X (win0_3.xinj (grid0.coords t) y) = G (((cfg0.win 3).blk t).view.emb y)
  have e1 : win0_3.xinj (grid0.coords t) y = ix3 0 ⟨(y 1).val, hy1⟩ ⟨(y 2).val, hy2⟩ := by
    funext a
    apply Fin.ext
    match a with
    | ⟨0, _⟩ => exact hy0
    | ⟨1, _⟩ => rfl
    | ⟨2, _⟩ => rfl
  have e2 : ((cfg0.win 3).blk t).view.emb y = ix3 ⟨t.val / 32, batch_lt t⟩ ⟨(y 1).val, hy1⟩ ⟨(y 2).val, hy2⟩ := by
    funext a
    apply Fin.ext
    match a with
    | ⟨0, _⟩ => show win0_3.index t 0 * 1 + 1 * (y 0).val = t.val / 32; rw [h0, hy0]; omega
    | ⟨1, _⟩ => show win0_3.index t 1 * 2 + 1 * (y 1).val = (y 1).val; rw [h1]; omega
    | ⟨2, _⟩ => show win0_3.index t 2 * 33 + 1 * (y 2).val = (y 2).val; rw [h2]; omega
  rw [e1, e2]
  exact hX _ _

/-- Every index (b, r, s) of the size array lies in the block that batch `b`'s last tile, point 32·b + 31, writes back. -/
theorem cover3 (i : S2x2x33.Idx) :
    ∃ t : Fin cfg0.N, (cfg0.win 3).flush t = true ∧ i ∈ ((cfg0.win 3).blk t).view.set := by
  have hN : cfg0.N = 64 := N_0
  have hi0 : (i 0).val < 2 := (i 0).isLt
  have hi1 : (i 1).val < 2 := (i 1).isLt
  have hi2 : (i 2).val < 33 := (i 2).isLt
  have ht : 32 * (i 0).val + 31 < cfg0.N := by omega
  obtain ⟨h0, h1, h2⟩ := index3 ⟨32 * (i 0).val + 31, ht⟩
  refine ⟨⟨32 * (i 0).val + 31, ht⟩, (flush0_3 _).mpr (by show (32 * (i 0).val + 31) % 32 = 31; omega), ?_⟩
  show i ∈ ((View.whole main_v2_1).slice (win0_3.rect ⟨32 * (i 0).val + 31, ht⟩)).set
  rw [View.set_slice_whole, Rect.mem_set_unit]
  intro a
  match a with
  | ⟨0, _⟩ =>
    show win0_3.index ⟨32 * (i 0).val + 31, ht⟩ 0 * 1 ≤ (i 0).val
      ∧ (i 0).val < win0_3.index ⟨32 * (i 0).val + 31, ht⟩ 0 * 1 + 1
    rw [h0]
    show (32 * (i 0).val + 31) / 32 * 1 ≤ (i 0).val ∧ (i 0).val < (32 * (i 0).val + 31) / 32 * 1 + 1
    omega
  | ⟨1, _⟩ =>
    show win0_3.index ⟨32 * (i 0).val + 31, ht⟩ 1 * 2 ≤ (i 1).val
      ∧ (i 1).val < win0_3.index ⟨32 * (i 0).val + 31, ht⟩ 1 * 2 + 2
    rw [h1]; omega
  | ⟨2, _⟩ =>
    show win0_3.index ⟨32 * (i 0).val + 31, ht⟩ 2 * 33 ≤ (i 2).val
      ∧ (i 2).val < win0_3.index ⟨32 * (i 0).val + 31, ht⟩ 2 * 33 + 33
    rw [h2]; omega

/-- At a batch's last tile the mass output block is row `t / 32` of the specification's mass. -/
theorem mass_at (c : Dev nD) (t : Fin cfg0.N) (hl : t.val % 32 = 31) (r : Fin 2) (s : Fin 33) :
    ((outsAt0 (F := Ideal) m c t.val t.isLt).1 : Vec Ideal S1x2x33 .f32) (ix3 0 r s)
      = Spec.psumG (xin m c) (tin m c) (ix3 ⟨t.val / 32, batch_lt t⟩ r s) :=
  (out_mass m c t hl r s).trans (massUpTo_all m c (ix3 ⟨t.val / 32, batch_lt t⟩ r s))

/-- At a batch's last tile the size output block is row `t / 32` of the specification's size. -/
theorem size_at (c : Dev nD) (t : Fin cfg0.N) (hl : t.val % 32 = 31) (r : Fin 2) (s : Fin 33) :
    ((outsAt0 (F := Ideal) m c t.val t.isLt).2.1 : Vec Ideal S1x2x33 .f32) (ix3 0 r s)
      = Spec.cntG (tin m c) (ix3 ⟨t.val / 32, batch_lt t⟩ r s) :=
  (out_size m c t hl r s).trans (sizeUpTo_all m c (ix3 ⟨t.val / 32, batch_lt t⟩ r s))

/-- What a writing point writes back into the mass array is its block of the specification's mass. -/
theorem flushed_mass (c : Dev nD) (t : Fin cfg0.N) (hf : (cfg0.win 2).flush t = true) :
    (dats (F := Ideal) m 0 c).flushed 2 t
      = ((cfg0.win 2).blk t).view.read (Elt Ideal) (Spec.psumG (xin m c) (tin m c)) := by
  have hl : t.val % 32 = 31 := (flush0_2 t).mp hf
  show (cfg0.win 2).cut (grid0.coords t) ((dats m 0 c).after 2 t) = _
  rw [after0_2]
  exact flushed2_of c t _ _ (mass_at m c t hl)

/-- What a writing point writes back into the size array is its block of the specification's size. -/
theorem flushed_size (c : Dev nD) (t : Fin cfg0.N) (hf : (cfg0.win 3).flush t = true) :
    (dats (F := Ideal) m 0 c).flushed 3 t
      = ((cfg0.win 3).blk t).view.read (Elt Ideal) (Spec.cntG (tin m c)) := by
  have hl : t.val % 32 = 31 := (flush0_3 t).mp hf
  show (cfg0.win 3).cut (grid0.coords t) ((dats m 0 c).after 3 t) = _
  rw [after0_3]
  exact flushed3_of c t _ _ (size_at m c t hl)

/-- The mass array after the run. -/
theorem arr_mass (c : Dev nD) :
    ((dats (F := Ideal) m 0 c).arrAt 2 cfg0.N : S2x2x33.Idx → EReal) = Spec.psumG (xin m c) (tin m c) :=
  (dats (F := Ideal) m 0 c).arrAt_eq_of_cover 2 (Spec.psumG (xin m c) (tin m c)) (flushed_mass m c) cover2

/-- The size array after the run. -/
theorem arr_size (c : Dev nD) :
    ((dats (F := Ideal) m 0 c).arrAt 3 cfg0.N : S2x2x33.Idx → EReal) = Spec.cntG (tin m c) :=
  (dats (F := Ideal) m 0 c).arrAt_eq_of_cover 3 (Spec.cntG (tin m c)) (flushed_size m c) cover3

set_option maxHeartbeats 1000000 in
/-- The host operations after the region, run from the region's exit contents, leave the dice tail of the two arrays:
    they are the same chain of operations, read at the mass and size arrays. -/
theorem tail_eq (c : Dev nD) :
    Pipeline.afterTail₀ cfgs (dats (F := Ideal) m) 0 (V0 m) [hostOps1] c main_v28
      = Cert.ReferenceIdeal.Tail.tail (Spec.psumG (xin m c) (tin m c)) (Spec.cntG (tin m c)) := by
  rw [← arr_mass m c, ← arr_size m c]
  unfold Pipeline.afterTail₀
  have h2 := Pipeline.withArrays_arr spec0 launch0.win.arr_inj c (V0 m c) (fun w => (dats (F := Ideal) m 0 c).arrAt w cfg0.N) 2
  have h3 := Pipeline.withArrays_arr spec0 launch0.win.arr_inj c (V0 m c) (fun w => (dats (F := Ideal) m 0 c).arrAt w cfg0.N) 3
  generalize (dats (F := Ideal) m 0 c).arrAt 2 cfg0.N = P at h2 ⊢
  generalize (dats (F := Ideal) m 0 c).arrAt 3 cfg0.N = C at h3 ⊢
  show StableHlo.after (List.flatten [hostOps1])
      (Pipeline.withArrays spec0 c (V0 m c) (fun w => (dats (F := Ideal) m 0 c).arrAt w cfg0.N)) (Proc.devRef .tc main_v28) = _
  generalize Pipeline.withArrays spec0 c (V0 m c) (fun w => (dats (F := Ideal) m 0 c).arrAt w cfg0.N) = W at h2 h3 ⊢
  have h2' : W (Proc.devRef .tc main_v2_0) = P := h2
  have h3' : W (Proc.devRef .tc main_v2_1) = C := h3
  simp only [hostOps1, List.flatten_cons, List.flatten_nil, List.append_nil]
  after_results_simp
  rw [h2', h3']
  unfold Cert.ReferenceIdeal.Tail.tail
  rfl

/-- THE KERNEL'S RUN: every weakly fair execution ends with the result at the dice tail of the specification's mass and
    size, the arguments unchanged. -/
theorem kernel_run : θ_run defs (onTc (τ := τ) (main (F := Ideal))) ⟨m, fun _ => 0, ρ⟩ (fun r => ∀ c : Dev nD,
      r.2.mem ((c.tc : Thread nD τ).loc main_v28)
        = Cert.ReferenceIdeal.Tail.tail (Spec.psumG (xin m c) (tin m c)) (Spec.cntG (tin m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Val

end
-- ==== Proof.lean ====
/-
  The kernel computes, per batch and foreground channel, the probability mass and the size of each of the 33 target
  segments by a one-hot matrix product accumulated over tiles and chunks; the reference computes the same two arrays
  by two segment sums keyed by target + 33·row. Over the extended reals both are the sums of the specification
  (Proof/Spec.lean): a finite sum does not depend on how it is grouped, a zero-or-one factor selects the terms, and,
  the targets lying in 0 … 32 by the precondition, a reference key names exactly one row and one segment. Both
  programs then apply the same dice arithmetic to the two arrays (Proof/Tail.lean). The three frames are the
  generated ones; nothing of the kernel's text was rewritten by the ideal pass.
-/
import proofs.«404998_j80882824118629_3_alg».proof.Defs
import proofs.«404998_j80882824118629_3_alg».proof.Proof.Gen.Kernel
import proofs.«404998_j80882824118629_3_alg».proof.Proof.Gen.Kernel.Skeleton
import proofs.«404998_j80882824118629_3_alg».proof.Proof.Gen.Kernel.Loops
import proofs.«404998_j80882824118629_3_alg».proof.Proof.Gen.Kernel.Launch
import proofs.«404998_j80882824118629_3_alg».proof.Proof.Gen.Kernel.Points
import proofs.«404998_j80882824118629_3_alg».proof.Proof.Gen.Kernel.Frame
import proofs.«404998_j80882824118629_3_alg».proof.Proof.Gen.KernelIdeal
import proofs.«404998_j80882824118629_3_alg».proof.Proof.Gen.KernelIdeal.Skeleton
import proofs.«404998_j80882824118629_3_alg».proof.Proof.Gen.KernelIdeal.Loops
import proofs.«404998_j80882824118629_3_alg».proof.Proof.Gen.KernelIdeal.Launch
import proofs.«404998_j80882824118629_3_alg».proof.Proof.Gen.KernelIdeal.Points
import proofs.«404998_j80882824118629_3_alg».proof.Proof.Gen.KernelIdeal.Frame
import proofs.«404998_j80882824118629_3_alg».proof.Proof.Gen.ReferenceIdeal
import proofs.«404998_j80882824118629_3_alg».proof.Proof.Gen.Pre_finite_inputs
import proofs.«404998_j80882824118629_3_alg».proof.Proof.RefRun
import proofs.«404998_j80882824118629_3_alg».proof.Proof.RefRead
import proofs.«404998_j80882824118629_3_alg».proof.Proof.PreDecode
import proofs.«404998_j80882824118629_3_alg».proof.Proof.RefScatter
import proofs.«404998_j80882824118629_3_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the dice tail of the specification's mass and size arrays of the shared arguments. -/
theorem algebraic : Cert.algebraic_KernelIdeal_ReferenceIdeal := by
  intro m ρ m' ρ' hpre hagree
  refine ⟨fun c => Cert.ReferenceIdeal.Tail.tail
      (Cert.Spec.psumG (Cert.KernelIdeal.Val.xin m c) (Cert.KernelIdeal.Val.tin m c))
      (Cert.Spec.cntG (Cert.KernelIdeal.Val.tin m c)), Cert.KernelIdeal.Val.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v57_eq, (hagree c).1, (hagree c).2]
  exact Cert.ReferenceIdeal.RefValue.ref_value _ _ (Cert.PreDecode.range_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
